-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4096x2048 .f32) (main_arg1 : FVec F S2048x2048 .f32) (main_arg2 : FVec F S2048 .f32) (main_arg3 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S2048x1 : Shape := ⟨2, ![2048, 1]⟩
abbrev S1x2048 : Shape := ⟨2, ![1, 2048]⟩
abbrev S1024x2048 : Shape := ⟨2, ![1024, 2048]⟩

abbrev nBuf : Space → Nat
  | .hbm => 11
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x1, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048, .f32⟩
  | .hbm, ⟨9, _⟩ => ⟨S1x2048, .f32⟩
  | .hbm, ⟨10, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bitsLt_bf16_f32 : FTy.bits .bf16 < FTy.bits .f32
  bcast_S2048_S1x2048_1 : S2048.BroadcastsInDim S1x2048 (![1] : Fin 1 → Fin S1x2048.rank)
  inb_S1024x2048_S1024x2048_0_0 : ∀ a, (![0, 0] : Fin 2 → Nat) a + S1024x2048.size a ≤ S1024x2048.size a
  h_S1024x2048 : 0 < S1024x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x2048_S2048x2048_S1024x2048_1_1_0_0_n_n_wf : DotDims.WF S1024x2048 S2048x2048 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x2048.size a
  hwx0_3 : ∀ i : grid0.Coords, EltTy.bits .f32 = 32 ∨ (Rect.block (s := S4096x2048) S1024x2048.size (cc0_transform_3 i) (hinb0_3 i)).WholeWords (EltTy.packing .f32)

variable [Facts₀]

def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S2x2048 : Shape := ⟨2, ![2, 2048]⟩
abbrev S512x512 : Shape := ⟨2, ![512, 512]⟩
abbrev S256x512 : Shape := ⟨2, ![256, 512]⟩
abbrev S2x256 : Shape := ⟨2, ![2, 256]⟩
abbrev S512x256 : Shape := ⟨2, ![512, 256]⟩
abbrev S1x256 : Shape := ⟨2, ![1, 256]⟩

abbrev nBuf : Space → Nat
  | .hbm => 17
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .i32⟩
  | .hbm, ⟨5, _⟩ => ⟨S_, .f32⟩
  | .hbm, ⟨6, _⟩ => ⟨S2048x2048, .f32⟩
  | .hbm, ⟨7, _⟩ => ⟨S_, .i32⟩
  | .hbm, ⟨8, _⟩ => ⟨S_, .f32⟩
  | .hbm, ⟨9, _⟩ => ⟨S2048, .f32⟩
  | .hbm, ⟨10, _⟩ => ⟨S_, .i32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S2x2048, .f32⟩
  | .hbm, ⟨16, _⟩ => ⟨S4096x2048, .f32⟩
  | .local _ .vmem, ⟨0, _⟩ => ⟨S512x512, .f32⟩
  | .local _ .vmem, ⟨1, _⟩ => ⟨S512x512, .f32⟩
  | .local _ .vmem, ⟨2, _⟩ => ⟨S256x512, .f32⟩
  | .local _ .vmem, ⟨3, _⟩ => ⟨S256x512, .f32⟩
  | .local _ .vmem, ⟨4, _⟩ => ⟨S2x256, .f32⟩
  | .local _ .vmem, ⟨5, _⟩ => ⟨S2x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  pads_S2048x2048_S2048x2048_000_000 : S2048x2048.Pads (![0, 0] : Fin 2 → Nat) ![0, 0] ![0, 0] S2048x2048
  h_S_ : 0 < S_.numel
  pads_S2048_S2048_000 : S2048.Pads (![0] : Fin 1 → Nat) ![0] ![0] S2048
  bcast_S2048_S1x2048_1 : S2048.BroadcastsInDim S1x2048 (![1] : Fin 1 → Fin S1x2048.rank)
  concatenates_S1x2048_S1x2048_S2x2048_d0 : Shape.Concatenates [S1x2048, S1x2048] S2x2048 0
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2x256_S1x256_0_0 : ∀ a, (![0, 0] : Fin 2 → Nat) a + S1x256.size a ≤ S2x256.size a
  h_S1x256 : 0 < S1x256.numel
  shapeCasts_S1x256_S1x256 : S1x256.ShapeCasts S1x256
  inb_S2x256_S1x256_1_0 : ∀ a, (![1, 0] : Fin 2 → Nat) a + S1x256.size a ≤ S2x256.size a
  broadcasts_S1x256_S512x256 : S1x256.Broadcasts S512x256
  dot_S512x512_S256x512_S512x256_1_1_0_0_n_n_wf : DotDims.WF S512x512 S256x512 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x2048.size a
  hwx0_0 : ∀ i : grid0.Coords, EltTy.bits .f32 = 32 ∨ (Rect.block (s := S4096x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S2048x2048.size a
  hwx0_1 : ∀ i : grid0.Coords, EltTy.bits .f32 = 32 ∨ (Rect.block (s := S2048x2048) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x2048.size a
  hwx0_2 : ∀ i : grid0.Coords, EltTy.bits .f32 = 32 ∨ (Rect.block (s := S2x2048) S2x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x2048.size a
  hwx0_3 : ∀ i : grid0.Coords, EltTy.bits .f32 = 32 ∨ (Rect.block (s := S4096x2048) S512x256.size (cc0_transform_3 i) (hinb0_3 i)).WholeWords (EltTy.packing .f32)

variable [Facts₀]

def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.Spec.lean ====
/-
  The masked linear layer as a function of its four arguments, index by index over the extended reals, in the
  two arrangements the two programs compute it in.

  With x : [4096, 2048], w : [2048, 2048] (row v of w holds the weights of output feature v), b, mk : [2048]:

  * `maskedAfter`:  z (i, v) = ((∑ k, x (i, k) · w (v, k)) + b v) · mk v      — the mask applied to the finished row;
  * `maskedBefore`: z (i, v) = (∑ k, x (i, k) · (w (v, k) · mk v)) + b v · mk v — the mask folded into weight and bias.

  On real numbers the two agree by distributivity; on the extended reals distributivity fails at the infinities, so
  the equality is stated for arguments all of whose entries are real.
-/
import Idealize.ShloMosaic.PureOps.Ideal
import Idealize.ShloMosaic.Lib.ValueIdx

noncomputable section

namespace Cert.MaskedLinear

open Idealize.ShloMosaic Idealize.ShloMosaic.ValueIdx
open scoped BigOperators

/-- The shape of the activations and of the result. -/
abbrev SX : Shape := ⟨2, ![4096, 2048]⟩
/-- The shape of the weight matrix, one row per output feature. -/
abbrev SW : Shape := ⟨2, ![2048, 2048]⟩
/-- The shape of the bias and of the mask. -/
abbrev SV : Shape := ⟨1, ![2048]⟩

/-- The mask applied after the bias: `((x · wᵀ) + b) · mk`. -/
def maskedAfter (x : SX.Idx → EReal) (w : SW.Idx → EReal) (b mk : SV.Idx → EReal) : SX.Idx → EReal := fun j =>
  ((∑ k : Fin 2048, x (ix2 (j 0) k) * w (ix2 (j 1) k)) + b (ix1 (j 1))) * mk (ix1 (j 1))

/-- The mask folded into the weights and the bias: `x · (w · mk)ᵀ + b · mk`. -/
def maskedBefore (x : SX.Idx → EReal) (w : SW.Idx → EReal) (b mk : SV.Idx → EReal) : SX.Idx → EReal := fun j =>
  (∑ k : Fin 2048, x (ix2 (j 0) k) * (w (ix2 (j 1) k) * mk (ix1 (j 1)))) + b (ix1 (j 1)) * mk (ix1 (j 1))

end Cert.MaskedLinear

end
-- ==== Proof.KernelValue.lean ====
/-
  The value of the kernel's result: the linear layer with the mask folded into the weights and the bias.

  Before the region the host multiplies row `v` of the weights by the mask entry `mk v`, `w' (v, k) = w (v, k) · mk v`
  (the change of float format that follows is the identity on the extended reals), and the bias by the mask,
  `b' v = b v · mk v`, laid out as one row. The region runs over four points. Point `t` reads row block `t` of the
  activations (rows `1024 t … 1024 t + 1023`) and the whole of `w'` and `b'`, and writes row block `t` of the result:
  `z (p, q) = (∑ k, x (p, k) · w' (q, k)) + b' q`, the product contracting the second axis of both operands into a zero
  accumulator. Read index by index this is `maskedBefore` of the four arguments, on all extended reals: nothing here
  needs an entry to be finite.

  In order: the product read at an index; the body's one stored value at an index; the two arrays the host wrote, read
  at an index; the three input blocks as entries of the arguments; what a point writes back; the cover of the rows by
  the four blocks; the run.
-/
import proofs.«154836_g2000404418063307_pallasbulk_246_3_alg».proof.Proof.Gen.KernelIdeal.Value
import proofs.«154836_g2000404418063307_pallasbulk_246_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

namespace Cert.KernelIdeal.KV

open Cert.KernelIdeal Cert.KernelIdeal.Gen Cert.KernelIdeal.Value Cert.MaskedLinear
open Idealize.ShloMosaic Idealize.ShloMosaic.TcCoe Idealize.ShloMosaic.ValueIdx Idealize.SL.Sem
open Idealize.ShloMosaic.Pipeline (Dat)
open scoped BigOperators

/-! ## The matrix product read at an index

The product contracts axis 1 of both operands: the left operand's index at output index `(p, q)` and contraction
position `k` is `(p, k)`, the right operand's is `(q, k)`. One lemma per operand axis. -/

theorem lhs_axis0 (i : S1024x2048.Idx) (q : dot_S1024x2048_S2048x2048_S1024x2048_1_1_0_0_n_n.contr.Idx) :
    (dot_S1024x2048_S2048x2048_S1024x2048_1_1_0_0_n_n.lhsIdx i q 0).val = (i 0).val := by
  unfold DotDims.lhsIdx
  rw [dif_neg (show ¬(0 : Fin S1024x2048.rank) ∈ dot_S1024x2048_S2048x2048_S1024x2048_1_1_0_0_n_n.lhsBatch by decide),
    dif_pos (show (0 : Fin S1024x2048.rank) ∈ dot_S1024x2048_S2048x2048_S1024x2048_1_1_0_0_n_n.lhsNonContracting by decide)]
  rfl

theorem lhs_axis1 (i : S1024x2048.Idx) (q : dot_S1024x2048_S2048x2048_S1024x2048_1_1_0_0_n_n.contr.Idx) :
    (dot_S1024x2048_S2048x2048_S1024x2048_1_1_0_0_n_n.lhsIdx i q 1).val = (q ⟨0, by decide⟩).val :=
  dot_S1024x2048_S2048x2048_S1024x2048_1_1_0_0_n_n.lhsIdx_val_of_single rfl i q

theorem rhs_axis0 (i : S1024x2048.Idx) (q : dot_S1024x2048_S2048x2048_S1024x2048_1_1_0_0_n_n.contr.Idx) :
    (dot_S1024x2048_S2048x2048_S1024x2048_1_1_0_0_n_n.rhsIdx i q 0).val = (i 1).val := by
  unfold DotDims.rhsIdx
  rw [dif_neg (show ¬(0 : Fin S2048x2048.rank) ∈ dot_S1024x2048_S2048x2048_S1024x2048_1_1_0_0_n_n.rhsBatch by decide),
    dif_pos (show (0 : Fin S2048x2048.rank) ∈ dot_S1024x2048_S2048x2048_S1024x2048_1_1_0_0_n_n.rhsNonContracting by decide)]
  rfl

theorem rhs_axis1 (i : S1024x2048.Idx) (q : dot_S1024x2048_S2048x2048_S1024x2048_1_1_0_0_n_n.contr.Idx) :
    (dot_S1024x2048_S2048x2048_S1024x2048_1_1_0_0_n_n.rhsIdx i q 1).val = (q ⟨0, by decide⟩).val :=
  dot_S1024x2048_S2048x2048_S1024x2048_1_1_0_0_n_n.rhsIdx_val_of_single rfl i q

/-- The product into the zero accumulator, at `(p, q)`: the sum over `k` of `l (p, k) · r (q, k)`. -/
theorem matmul_at (l : FVec Ideal S1024x2048 .bf16) (r : FVec Ideal S2048x2048 .bf16) (p : Fin 1024) (q : Fin 2048) :
    matmul dot_S1024x2048_S2048x2048_S1024x2048_1_1_0_0_n_n none l r (constant S1024x2048 .f32 0x00000000#32) (ix2 p q)
      = ∑ k : Fin 2048, l (ix2 p k) * r (ix2 q k) := by
  refine (Ideal.matmul_constant_zero_apply dot_S1024x2048_S2048x2048_S1024x2048_1_1_0_0_n_n none l r (ix2 p q)).trans ?_
  rw [← Equiv.sum_comp (contrEquiv1 dot_S1024x2048_S2048x2048_S1024x2048_1_1_0_0_n_n 2048 rfl rfl).symm]
  refine Finset.sum_congr rfl fun k _ => ?_
  have hk := contrEquiv1_symm_val dot_S1024x2048_S2048x2048_S1024x2048_1_1_0_0_n_n 2048 rfl rfl k
  have el : dot_S1024x2048_S2048x2048_S1024x2048_1_1_0_0_n_n.lhsIdx (ix2 p q)
      ((contrEquiv1 dot_S1024x2048_S2048x2048_S1024x2048_1_1_0_0_n_n 2048 rfl rfl).symm k) = ix2 p k :=
    funext fun a => Fin.ext (by
      match a with
      | ⟨0, _⟩ => exact lhs_axis0 _ _
      | ⟨1, _⟩ => exact (lhs_axis1 _ _).trans hk)
  have er : dot_S1024x2048_S2048x2048_S1024x2048_1_1_0_0_n_n.rhsIdx (ix2 p q)
      ((contrEquiv1 dot_S1024x2048_S2048x2048_S1024x2048_1_1_0_0_n_n 2048 rfl rfl).symm k) = ix2 q k :=
    funext fun a => Fin.ext (by
      match a with
      | ⟨0, _⟩ => exact rhs_axis0 _ _
      | ⟨1, _⟩ => exact (rhs_axis1 _ _).trans hk)
  rw [el, er]

/-- The body's one stored value at `(p, q)`, over any three loaded blocks: the product of the activations' block with
    the weight block, contracted over the second axis of both, plus the bias row at `q`. -/
theorem payload_at (v0 : Vec Ideal S1024x2048 .f32) (v2 : Vec Ideal S2048x2048 .bf16) (v5 : Vec Ideal S1x2048 .f32)
    (p : Fin 1024) (q : Fin 2048) :
    k0_pay1 v0 v2 v5 (ix2 p q) = (∑ k : Fin 2048, v0 (ix2 p k) * v2 (ix2 q k)) + v5 (ix2 (0 : Fin 1) q) := by
  unfold k0_pay1
  rw [addf_apply, matmul_at, broadcastTo_1b_ab_apply, shapeCast_self, shapeCast_self]
  rfl

/-! ## The arguments, and the arrays the host wrote before the region, read at an index -/

variable (m : (ℓ : Loc nD τ sig) → Buf (Elt Ideal) ℓ) (ρ : Dev nD → PrngReg)

/-- The activations on core `c`. -/
abbrev xarr (c : Dev nD) : FVec Ideal S4096x2048 .f32 := m ((c : Thread nD τ).loc main_arg0)
/-- The weights on core `c`, one row per output feature. -/
abbrev warr (c : Dev nD) : FVec Ideal S2048x2048 .f32 := m ((c : Thread nD τ).loc main_arg1)
/-- The bias on core `c`. -/
abbrev barr (c : Dev nD) : FVec Ideal S2048 .f32 := m ((c : Thread nD τ).loc main_arg2)
/-- The mask on core `c`. -/
abbrev karr (c : Dev nD) : FVec Ideal S2048 .f32 := m ((c : Thread nD τ).loc main_arg3)
/-- The masked weights as the region finds them. -/
abbrev wmarr (c : Dev nD) : FVec Ideal S2048x2048 .bf16 := V m c main_v3
/-- The masked bias row as the region finds it. -/
abbrev bmarr (c : Dev nD) : FVec Ideal S1x2048 .f32 := V m c main_v5

/-- The masked weights as the region finds them: the weight at `(v, k)` times the mask at `v`. -/
theorem wmask_at (c : Dev nD) (v k : Fin 2048) :
    wmarr m c (ix2 v k) = warr m c (ix2 v k) * karr m c (ix1 v) := by
  have e : wmarr m c
      = truncf .bf16 (mulf (warr m c)
          (broadcastInDim S2048x2048 ![0, 1] bcast_S2048x1_S2048x2048_0_1
            (broadcastInDim S2048x1 ![0] bcast_S2048_S2048x1_0 (karr m c))))
          bitsLt_bf16_f32 := by
    show V m c main_v3 = _
    dsimp only [Gen.V, Gen.hostOps0]; after_results
  rw [e, truncf_apply, mulf_apply]
  congr 1
  rw [broadcastInDim_apply (s := S2048x1) (t := S2048x2048) ![0, 1] bcast_S2048x1_S2048x2048_0_1 _ (ix2 v k) (ix2 v (0 : Fin 1))
      (fun a => by match a with | ⟨0, _⟩ => rfl | ⟨1, _⟩ => rfl),
    broadcastInDim_apply (s := S2048) (t := S2048x1) ![0] bcast_S2048_S2048x1_0 _ (ix2 v (0 : Fin 1)) (ix1 v)
      (fun a => by match a with | ⟨0, _⟩ => rfl)]

/-- The masked bias row as the region finds it: the bias at `q` times the mask at `q`. -/
theorem bmask_at (c : Dev nD) (q : Fin 2048) :
    bmarr m c (ix2 (0 : Fin 1) q) = barr m c (ix1 q) * karr m c (ix1 q) := by
  have e : bmarr m c
      = broadcastInDim S1x2048 ![1] bcast_S2048_S1x2048_1 (mulf (barr m c) (karr m c)) := by
    show V m c main_v5 = _
    dsimp only [Gen.V, Gen.hostOps0]; after_results
  rw [e, broadcastInDim_apply (s := S2048) (t := S1x2048) ![1] bcast_S2048_S1x2048_1 _ (ix2 (0 : Fin 1) q) (ix1 q)
      (fun a => by match a with | ⟨0, _⟩ => rfl), mulf_apply]

/-! ## The blocks the body reads, as entries of the arguments -/

/-- The zero offsets of a whole-buffer access, as a constant function. -/
theorem hz : (![0, 0] : Fin 2 → Nat) = fun _ => 0 := funext fun a => by fin_cases a <;> rfl

/-- The printed index maps over the four grid points: the activations' and the result's blocks are row block `t`, the
    weights and the bias row are staged whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input blocks at point `t`, at their literal types. -/
abbrev xblk (c : Dev nD) (t : Fin cfg0.N) : Vec Ideal S1024x2048 .f32 := iblk m c 0 t
abbrev wblk (c : Dev nD) (t : Fin cfg0.N) : Vec Ideal S2048x2048 .bf16 := iblk m c 1 t
abbrev bblk (c : Dev nD) (t : Fin cfg0.N) : Vec Ideal S1x2048 .f32 := iblk m c 2 t

/-- Row `p` of the activations' block at point `t` is row `1024 t + p` of the activations. -/
theorem xblk_at (c : Dev nD) (t : Fin cfg0.N) (p : Fin 1024) (k : Fin 2048) (r : Fin 4096) (hr : r.val = t.val * 1024 + p.val) :
    xblk m c t (ix2 p k) = xarr m c (ix2 r k) := by
  obtain ⟨e0, e1, -⟩ := idx_facts t
  show iblk m c 0 t (ix2 p k) = _
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = r.val; omega
  | ⟨1, _⟩ => show win0_0.index t (1 : Fin 2) * 2048 + 1 * k.val = k.val; omega

/-- The weight block at any point is the whole masked weight array. -/
theorem wblk_at (c : Dev nD) (t : Fin cfg0.N) (v k : Fin 2048) :
    wblk m c t (ix2 v k) = warr m c (ix2 v k) * karr m c (ix1 v) := by
  obtain ⟨-, -, e0, e1, -⟩ := idx_facts t
  show iblk m c 1 t (ix2 v k) = _
  unfold iblk
  rw [View.read_apply]
  show V m c main_v3 _ = _
  refine Eq.trans (congrArg _ (funext fun a => Fin.ext ?_)) (wmask_at m c v k)
  match a with
  | ⟨0, _⟩ => show win0_1.index t (0 : Fin 2) * 2048 + 1 * v.val = v.val; omega
  | ⟨1, _⟩ => show win0_1.index t (1 : Fin 2) * 2048 + 1 * k.val = k.val; omega

/-- The bias block at any point is the whole masked bias row. -/
theorem bblk_at (c : Dev nD) (t : Fin cfg0.N) (q : Fin 2048) :
    bblk m c t (ix2 (0 : Fin 1) q) = barr m c (ix1 q) * karr m c (ix1 q) := by
  obtain ⟨-, -, -, -, e0, e1, -⟩ := idx_facts t
  show iblk m c 2 t (ix2 (0 : Fin 1) q) = _
  unfold iblk
  rw [View.read_apply]
  show V m c main_v5 _ = _
  refine Eq.trans (congrArg _ (funext fun a => Fin.ext ?_)) (bmask_at m c q)
  match a with
  | ⟨0, _⟩ => show win0_2.index t (0 : Fin 2) * 1 + 1 * 0 = 0; omega
  | ⟨1, _⟩ => show win0_2.index t (1 : Fin 2) * 2048 + 1 * q.val = q.val; omega

/-! ## What a point writes back, the cover, and the run -/

/-- The four arguments' linear layer with the mask folded in, on core `c`. -/
abbrev result (c : Dev nD) : FVec Ideal S4096x2048 .f32 :=
  maskedBefore (xarr m c) (warr m c) (barr m c) (karr m c)

/-- The body's stored value at local index `j` of point `t` is the result at row `1024 t + j₀`, column `j₁`. -/
theorem point_eq (c : Dev nD) (t : Fin cfg0.N) (j : S1024x2048.Idx) (i : S4096x2048.Idx)
    (hi0 : (i 0).val = t.val * 1024 + (j 0).val) (hi1 : (i 1).val = (j 1).val) :
    k0_pay1 (xblk m c t) (wblk m c t) (bblk m c t) j = result m c i := by
  obtain ⟨p, q, rfl⟩ : ∃ (p : Fin 1024) (q : Fin 2048), j = ix2 p q := ⟨j 0, j 1, eq_ix2 j⟩
  have hq : i 1 = q := Fin.ext hi1
  refine (payload_at (xblk m c t) (wblk m c t) (bblk m c t) p q).trans ?_
  show _ = (∑ k : Fin 2048, xarr m c (ix2 (i 0) k) * (warr m c (ix2 (i 1) k) * karr m c (ix1 (i 1))))
    + barr m c (ix1 (i 1)) * karr m c (ix1 (i 1))
  rw [hq]
  refine congrArg₂ (· + ·) (Finset.sum_congr rfl fun k _ => ?_) (bblk_at m c t q)
  exact congrArg₂ (· * ·) (xblk_at m c t p k (i 0) hi0) (wblk_at m c t q k)

/-- What point `t` writes back is block `t` of the result. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S1024x2048) hz, View.ld_unit_zero (S := S2048x2048) hz, View.ld_unit_zero (S := S1x2048) hz]
  obtain ⟨-, -, -, -, -, -, e0, e1⟩ := idx_facts t
  funext j
  show k0_pay1 (xblk m c t) (wblk m c t) (bblk m c t) j = result m c (((cfg0.win 3).blk t).view.emb j)
  refine point_eq m c t j _ ?_ ?_
  · show win0_3.index t (0 : Fin 2) * 1024 + 1 * (j 0).val = _; omega
  · show win0_3.index t (1 : Fin 2) * 2048 + 1 * (j 1).val = _; omega

/-- An index of the result array is in point `t`'s block iff each coordinate is in the block's range on its axis. -/
theorem mem_blk (t : Fin cfg0.N) (i : S4096x2048.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v6).slice (win0_3.rect t)).set ↔ _
  rw [View.set_slice_whole, Rect.mem_set_unit]
  exact Iff.rfl

/-- Every row is in some point's block: row `r` in the block of point `r / 1024`. -/
theorem cover (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 4 := N_0
  obtain ⟨t, ht⟩ : ∃ t : Fin cfg0.N, t.val = (i 0).val / 1024 := ⟨⟨(i 0).val / 1024, by rw [hN]; omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- The result array after the run is the result. -/
theorem final (c : Dev nD) : (dats m 0 c).arrAt 3 cfg0.N = result m c :=
  (dats m 0 c).arrAt_eq_of_cover 3 (result m c) (fun t _ => flushed_eq m c t) cover

/-- The kernel's run: the result array ends at the linear layer with the mask folded into weight and bias, the
    arguments unchanged. -/
theorem run : θ_run (defs (F := Ideal)) (onTc (τ := τ) (main (F := Ideal))) ⟨m, fun _ => 0, ρ⟩ fun r => ∀ c : Dev nD,
      r.2.mem ((c : Thread nD τ).loc main_v6) = maskedBefore (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KV

end
-- ==== Proof.RefPieces.lean ====
/-
  What one grid point of the reference's K-tiled kernel leaves behind, read as values.

  The body keeps a [512, 256] accumulator in a scratch buffer that survives from one grid point to the next.
  At every point it adds to the accumulator the product of the point's [512, 512] tile of x with the transpose of
  its [256, 512] tile of w; at the first point of a run of four (k = 0) the accumulator is zeroed first, and at the
  last (k = 3) the output tile is written: (accumulator + bias row) · mask row, the two rows being rows 0 and 1 of
  the point's [2, 256] tile of the packed bias-and-mask array.

  The three control cases' stores, as the symbolic run found them, are read back here as the pure payload terms:
  the accumulator after the point is `k0_pay2 acc xtile wtile` (`acc` the zero splat `k0_pay1` at k = 0), and the
  output tile at k = 3 is `k0_pay3 biasRow maskRow` of that new accumulator.
-/
import proofs.«154836_g2000404418063307_pallasbulk_246_3_alg».proof.Proof.Gen.ReferenceIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.RV

open Cert.ReferenceIdeal Cert.ReferenceIdeal.Gen

variable {F : FTy → Type} [FloatOps F]

/-- The zero offsets of a rank-2 rectangle, however spelt. -/
theorem hz : (![0, 0] : Fin 2 → Nat) = fun _ => 0 := funext fun a => by fin_cases a <;> rfl

/-- Row 0 of a [2, 256] tile: the bias row. -/
abbrev rowBias : Rect S2x256 := Rect.unit (s := S2x256) ![0, 0] S1x256.size inb_S2x256_S1x256_0_0
/-- Row 1 of a [2, 256] tile: the mask row. -/
abbrev rowMask : Rect S2x256 := Rect.unit (s := S2x256) ![1, 0] S1x256.size inb_S2x256_S1x256_1_0

/-- At the first point of a run (k = 0) the accumulator is zeroed, read back, and left at `0 + xtile · wtileᵀ`. -/
theorem sout_A (c : Dev nD) (i : grid0.Coords) (arg3 : Memref sig .tc .vmem S512x512 .f32) (harg3 : arg3.IsWhole) (arg4 : Memref sig .tc .vmem S256x512 .f32) (harg4 : arg4.IsWhole) (arg5 : Memref sig .tc .vmem S2x256 .f32) (harg5 : arg5.IsWhole) (arg6 : Memref sig .tc .vmem S512x256 .f32) (harg6 : arg6.IsWhole) (arg7 : Memref sig .tc .vmem S512x256 .f32) (harg7 : arg7.IsWhole) (hc0 : cond0_0 i) (hc1 : ¬cond0_1 i)
    (x0 : Vec F S512x512 .f32) (x1 : Vec F S256x512 .f32) (x2 : Vec F S2x256 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x256) hz]
  simp only [View.readAt_eq_ld, harg3.read_unread, harg4.read_unread, harg5.read_unread, harg7.read_unread, View.readCov_unit_zero (S := S512x256) _ hz, View.ld_unit_zero (S := S512x256) hz, View.ld_unit_zero (S := S512x512) hz, View.ld_unit_zero (S := S256x512) hz]

/-- At a middle point (k = 1, 2) the accumulator the point before left, `acc`, is left at `acc + xtile · wtileᵀ`. -/
theorem sout_B (c : Dev nD) (i : grid0.Coords) (arg3 : Memref sig .tc .vmem S512x512 .f32) (harg3 : arg3.IsWhole) (arg4 : Memref sig .tc .vmem S256x512 .f32) (harg4 : arg4.IsWhole) (arg5 : Memref sig .tc .vmem S2x256 .f32) (harg5 : arg5.IsWhole) (arg6 : Memref sig .tc .vmem S512x256 .f32) (harg6 : arg6.IsWhole) (arg7 : Memref sig .tc .vmem S512x256 .f32) (harg7 : arg7.IsWhole) (hc0 : ¬cond0_0 i) (hc1 : ¬cond0_1 i)
    (x0 : Vec F S512x512 .f32) (x1 : Vec F S256x512 .f32) (x2 : Vec F S2x256 .f32) (xs0 : Vec F S512x256 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread, View.readCov_unit_zero (S := S512x256) _ hz, View.ld_unit_zero (S := S512x256) hz, View.ld_unit_zero (S := S512x512) hz, View.ld_unit_zero (S := S256x512) hz]

/-- At the last point of a run (k = 3) the accumulator is updated the same way … -/
theorem sout_C (c : Dev nD) (i : grid0.Coords) (arg3 : Memref sig .tc .vmem S512x512 .f32) (harg3 : arg3.IsWhole) (arg4 : Memref sig .tc .vmem S256x512 .f32) (harg4 : arg4.IsWhole) (arg5 : Memref sig .tc .vmem S2x256 .f32) (harg5 : arg5.IsWhole) (arg6 : Memref sig .tc .vmem S512x256 .f32) (harg6 : arg6.IsWhole) (arg7 : Memref sig .tc .vmem S512x256 .f32) (harg7 : arg7.IsWhole) (hc0 : ¬cond0_0 i) (hc1 : cond0_1 i)
    (x0 : Vec F S512x512 .f32) (x1 : Vec F S256x512 .f32) (x2 : Vec F S2x256 .f32) (xs0 : Vec F S512x256 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.readCov_unit_zero (S := S512x256) _ hz, View.ld_unit_zero (S := S512x256) hz, View.ld_unit_zero (S := S512x512) hz, View.ld_unit_zero (S := S256x512) hz]

/-- … and the output tile is written: (new accumulator + bias row) · mask row. -/
theorem out_C (c : Dev nD) (i : grid0.Coords) (arg3 : Memref sig .tc .vmem S512x512 .f32) (harg3 : arg3.IsWhole) (arg4 : Memref sig .tc .vmem S256x512 .f32) (harg4 : arg4.IsWhole) (arg5 : Memref sig .tc .vmem S2x256 .f32) (harg5 : arg5.IsWhole) (arg6 : Memref sig .tc .vmem S512x256 .f32) (harg6 : arg6.IsWhole) (arg7 : Memref sig .tc .vmem S512x256 .f32) (harg7 : arg7.IsWhole) (hc0 : ¬cond0_0 i) (hc1 : cond0_1 i)
    (x0 : Vec F S512x512 .f32) (x1 : Vec F S256x512 .f32) (x2 : Vec F S2x256 .f32) (xs0 : Vec F S512x256 .f32) :
    out0_C_3 c i arg3 harg3 arg4 harg4 arg5 harg5 arg6 harg6 arg7 harg7 hc0 hc1 x0 x1 x2 xs0
      = k0_pay3 (View.ld x2 rowBias) (View.ld x2 rowMask) (k0_pay2 xs0 x0 x1) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.readCov_unit_zero (S := S512x256) _ hz, View.ld_unit_zero (S := S512x256) hz, View.ld_unit_zero (S := S512x512) hz, View.ld_unit_zero (S := S256x512) hz]

end Cert.ReferenceIdeal.RV

end
-- ==== Proof.RefBlocks.lean ====
/-
  The reference's arrays as its kernel finds them, and its tiles read at an index.

  Before the kernel is launched the host pads the weight matrix, the bias and the mask by zero entries on every
  side (the identity), lays bias and mask out as rows of one [1, 2048] array each and stacks the two rows into a
  [2, 2048] array: row 0 is the bias, row 1 the mask. The kernel's grid has 8 × 8 × 4 points; point t (counted with
  the last axis fastest) is row tile t / 32, column tile (t / 4) % 8 and K tile t % 4, and at it

    the x tile      is x      [512 (t / 32) + p,      512 (t % 4) + kk],
    the w tile      is w      [256 ((t / 4) % 8) + q, 512 (t % 4) + kk],
    the packed tile is packed [r,                      256 ((t / 4) % 8) + q],
    the output tile is z      [512 (t / 32) + p,      256 ((t / 4) % 8) + q].
-/
import proofs.«154836_g2000404418063307_pallasbulk_246_3_alg».proof.Proof.Gen.ReferenceIdeal.Value
import Idealize.ShloMosaic.Lib.Pipeline.Value
import Idealize.ShloMosaic.Lib.ValueIdx
import Idealize.ShloMosaic.Lib.KernelVsHost
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.RV

open Cert.ReferenceIdeal Cert.ReferenceIdeal.Gen

variable {F : FTy → Type} [FloatOps F]
variable (m : (ℓ : Loc nD τ sig) → Buf (Elt F) ℓ)

/-! ## Padding by nothing -/

/-- A rank-2 array padded by zero entries low, high and between is the array. -/
theorem pad_none2 {α : Type} (x : S2048x2048.Idx → α) (v : S_.Idx → α)
    (h : S2048x2048.Pads ![0, 0] ![0, 0] ![0, 0] S2048x2048) (hu : 0 < S_.numel) :
    pad S2048x2048 ![0, 0] ![0, 0] ![0, 0] x v h hu = x := by
  funext j
  refine pad_apply_of_inside _ _ _ x v h hu j j fun a => ?_
  match a with
  | ⟨0, _⟩ => show (j 0).val = 0 + (j 0).val * (0 + 1); omega
  | ⟨1, _⟩ => show (j 1).val = 0 + (j 1).val * (0 + 1); omega

/-- A rank-1 array padded by zero entries low, high and between is the array. -/
theorem pad_none1 {α : Type} (x : S2048.Idx → α) (v : S_.Idx → α)
    (h : S2048.Pads ![0] ![0] ![0] S2048) (hu : 0 < S_.numel) :
    pad S2048 ![0] ![0] ![0] x v h hu = x := by
  funext j
  refine pad_apply_of_inside _ _ _ x v h hu j j fun a => ?_
  match a with
  | ⟨0, _⟩ => show (j 0).val = 0 + (j 0).val * (0 + 1); omega

/-! ## What the host wrote before the launch -/

/-- The weight operand of the kernel is the weight argument. -/
theorem V_weight (c : Dev nD) :
    (V m c main_v0 : S2048x2048.Idx → Elt F .f32) = m ((c : Thread nD τ).loc main_arg1) := by
  have e : (V m c main_v0 : S2048x2048.Idx → Elt F .f32)
      = pad S2048x2048 ![0, 0] ![0, 0] ![0, 0] (m ((c : Thread nD τ).loc main_arg1))
          (sitofp (F := F) .f32 (constantI S_ 32 0#32)) pads_S2048x2048_S2048x2048_000_000 h_S_ := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results
    rfl
  rw [e, pad_none2]

/-- The packed operand of the kernel: the bias as a row over the mask as a row. -/
theorem V_packed (c : Dev nD) :
    (V m c main_v5 : S2x2048.Idx → Elt F .f32)
      = concatenate S2x2048 0
          [⟨S1x2048, broadcastInDim S1x2048 ![1] bcast_S2048_S1x2048_1 (m ((c : Thread nD τ).loc main_arg2))⟩,
           ⟨S1x2048, broadcastInDim S1x2048 ![1] bcast_S2048_S1x2048_1 (m ((c : Thread nD τ).loc main_arg3))⟩]
          concatenates_S1x2048_S1x2048_S2x2048_d0 := by
  have e : (V m c main_v5 : S2x2048.Idx → Elt F .f32)
      = concatenate S2x2048 0
          [⟨S1x2048, broadcastInDim S1x2048 ![1] bcast_S2048_S1x2048_1
              (pad S2048 ![0] ![0] ![0] (m ((c : Thread nD τ).loc main_arg2)) (sitofp (F := F) .f32 (constantI S_ 32 0#32)) pads_S2048_S2048_000 h_S_)⟩,
           ⟨S1x2048, broadcastInDim S1x2048 ![1] bcast_S2048_S1x2048_1
              (pad S2048 ![0] ![0] ![0] (m ((c : Thread nD τ).loc main_arg3)) (sitofp (F := F) .f32 (constantI S_ 32 0#32)) pads_S2048_S2048_000 h_S_)⟩]
          concatenates_S1x2048_S1x2048_S2x2048_d0 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results
    rfl
  rw [e, pad_none1, pad_none1]

/-- A vector laid out as a row reads, at column q of its one row, the vector's entry q. -/
theorem row_apply {α : Type} (x : S2048.Idx → α) (q : Fin 2048) :
    broadcastInDim S1x2048 ![1] bcast_S2048_S1x2048_1 x (ix2 (0 : Fin 1) q) = x (ix1 q) := by
  refine broadcastInDim_apply _ _ x _ (ix1 q) fun a => ?_
  match a with
  | ⟨0, _⟩ => rfl

/-- Row 0 of the packed operand is the bias. -/
theorem V_packed_bias (c : Dev nD) (q : Fin 2048) :
    (V m c main_v5 : S2x2048.Idx → Elt F .f32) (ix2 (0 : Fin 2) q) = m ((c : Thread nD τ).loc main_arg2) (ix1 q) := by
  rw [V_packed]
  refine (concatenate_pair_apply_left (t := S2x2048) (s₁ := S1x2048) (s₂ := S1x2048) (0 : Fin 2) _ _ concatenates_S1x2048_S1x2048_S2x2048_d0
    (ix2 (0 : Fin 2) q : S2x2048.Idx) rfl (ix2 (0 : Fin 1) q : S1x2048.Idx) fun b => ?_).trans (row_apply _ q)
  match b with
  | ⟨0, _⟩ => rfl
  | ⟨1, _⟩ => rfl

/-- Row 1 of the packed operand is the mask. -/
theorem V_packed_mask (c : Dev nD) (q : Fin 2048) :
    (V m c main_v5 : S2x2048.Idx → Elt F .f32) (ix2 (1 : Fin 2) q) = m ((c : Thread nD τ).loc main_arg3) (ix1 q) := by
  rw [V_packed]
  refine (concatenate_pair_apply_right (t := S2x2048) (s₁ := S1x2048) (s₂ := S1x2048) (0 : Fin 2) _ _ concatenates_S1x2048_S1x2048_S2x2048_d0
    (ix2 (1 : Fin 2) q : S2x2048.Idx) rfl rfl (ix2 (0 : Fin 1) q : S1x2048.Idx) (fun b hb => ?_) rfl).trans (row_apply _ q)
  match b with
  | ⟨0, _⟩ => exact absurd rfl hb
  | ⟨1, _⟩ => rfl

/-! ## Where each window's block sits, decided over the 256 points -/

theorem idx_x : ∀ t : Fin cfg0.N, win0_0.index t (0 : Fin 2) = t.val / 32 ∧ win0_0.index t (1 : Fin 2) = t.val % 4 :=
  (by decide +kernel : ∀ t : Fin grid0.N, win0_0.index t (0 : Fin 2) = t.val / 32 ∧ win0_0.index t (1 : Fin 2) = t.val % 4)
theorem idx_w : ∀ t : Fin cfg0.N, win0_1.index t (0 : Fin 2) = (t.val / 4) % 8 ∧ win0_1.index t (1 : Fin 2) = t.val % 4 :=
  (by decide +kernel : ∀ t : Fin grid0.N, win0_1.index t (0 : Fin 2) = (t.val / 4) % 8 ∧ win0_1.index t (1 : Fin 2) = t.val % 4)
theorem idx_packed : ∀ t : Fin cfg0.N, win0_2.index t (0 : Fin 2) = 0 ∧ win0_2.index t (1 : Fin 2) = (t.val / 4) % 8 :=
  (by decide +kernel : ∀ t : Fin grid0.N, win0_2.index t (0 : Fin 2) = 0 ∧ win0_2.index t (1 : Fin 2) = (t.val / 4) % 8)
theorem idx_out : ∀ t : Fin cfg0.N, win0_3.index t (0 : Fin 2) = t.val / 32 ∧ win0_3.index t (1 : Fin 2) = (t.val / 4) % 8 :=
  (by decide +kernel : ∀ t : Fin grid0.N, win0_3.index t (0 : Fin 2) = t.val / 32 ∧ win0_3.index t (1 : Fin 2) = (t.val / 4) % 8)

/-! ## The tiles read at an index -/

/-- The x tile of point t at (p, kk) is x at (512 (t / 32) + p, 512 (t % 4) + kk). -/
theorem xtile_apply (c : Dev nD) (t : Fin cfg0.N) (p kk : Fin 512) (I : Fin 4096) (K : Fin 2048)
    (hI : I.val = 512 * (t.val / 32) + p.val) (hK : K.val = 512 * (t.val % 4) + kk.val) :
    (iblk m c 0 t : Vec F S512x512 .f32) (ix2 p kk) = m ((c : Thread nD τ).loc main_arg0) (ix2 I K) := by
  have hi := idx_x t
  unfold iblk
  rw [View.read_apply]
  show V m c main_arg0 _ = _
  rw [V_main_arg0]
  congr 1
  funext a
  apply Fin.ext
  match a with
  | ⟨0, _⟩ => show win0_0.index t 0 * 512 + 1 * p.val = I.val; rw [hi.1]; omega
  | ⟨1, _⟩ => show win0_0.index t 1 * 512 + 1 * kk.val = K.val; rw [hi.2]; omega

/-- The w tile of point t at (q, kk) is w at (256 ((t / 4) % 8) + q, 512 (t % 4) + kk). -/
theorem wtile_apply (c : Dev nD) (t : Fin cfg0.N) (q : Fin 256) (kk : Fin 512) (J K : Fin 2048)
    (hJ : J.val = 256 * ((t.val / 4) % 8) + q.val) (hK : K.val = 512 * (t.val % 4) + kk.val) :
    (iblk m c 1 t : Vec F S256x512 .f32) (ix2 q kk) = m ((c : Thread nD τ).loc main_arg1) (ix2 J K) := by
  have hi := idx_w t
  unfold iblk
  rw [View.read_apply]
  show (V m c main_v0 : S2048x2048.Idx → Elt F .f32) _ = _
  rw [V_weight]
  congr 1
  funext a
  apply Fin.ext
  match a with
  | ⟨0, _⟩ => show win0_1.index t 0 * 256 + 1 * q.val = J.val; rw [hi.1]; omega
  | ⟨1, _⟩ => show win0_1.index t 1 * 512 + 1 * kk.val = K.val; rw [hi.2]; omega

/-- The packed tile of point t at (r, q) is the packed array at (r, 256 ((t / 4) % 8) + q). -/
theorem ptile_apply (c : Dev nD) (t : Fin cfg0.N) (r : Fin 2) (q : Fin 256) (J : Fin 2048)
    (hJ : J.val = 256 * ((t.val / 4) % 8) + q.val) :
    (iblk m c 2 t : Vec F S2x256 .f32) (ix2 r q) = (V m c main_v5 : S2x2048.Idx → Elt F .f32) (ix2 r J) := by
  have hi := idx_packed t
  unfold iblk
  rw [View.read_apply]
  show (V m c main_v5 : S2x2048.Idx → Elt F .f32) _ = _
  congr 1
  funext a
  apply Fin.ext
  match a with
  | ⟨0, _⟩ => show win0_2.index t 0 * 2 + 1 * r.val = r.val; rw [hi.1]; omega
  | ⟨1, _⟩ => show win0_2.index t 1 * 256 + 1 * q.val = J.val; rw [hi.2]; omega

end Cert.ReferenceIdeal.RV

end
-- ==== Proof.RefPayloads.lean ====
/-
  The three values the reference kernel's body stores, read at one index over the extended reals.

  The body keeps a [512, 256] accumulator across the four steps of the contraction axis. At the first step it
  stores zero; at every step it stores the accumulator plus the product of a [512, 512] block of the activations
  with a [256, 512] block of the weights, both contracted on their second axis; at the last step it stores the
  accumulator plus the bias row, times the mask row. Read at (p, q):

  * the reset is 0;
  * the update is acc (p, q) + ∑ k, x0 (p, k) · x1 (q, k);
  * the finish is (acc (p, q) + bias (0, q)) · mask (0, q).
-/
import proofs.«154836_g2000404418063307_pallasbulk_246_3_alg».proof.Proof.Gen.ReferenceIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RV

open Cert.ReferenceIdeal Cert.ReferenceIdeal.Gen Idealize.ShloMosaic Idealize.ShloMosaic.ValueIdx
open scoped BigOperators

/-! ### The reset -/

/-- The reset stores zero at every index. -/
theorem pay1_apply (y : S512x256.Idx) : (k0_pay1 (F := Ideal)) y = 0 := by
  unfold k0_pay1
  rw [shapeCast_self, broadcast_apply]
  exact Ideal.ofBits_zero_f32

/-! ### The update: the operand indices of the product, axis by axis

The product contracts axis 1 of both operands; axis 0 of the left operand is the result's axis 0 and axis 0 of the
right operand is the result's axis 1. -/

/-- The left operand's row is the result's row. -/
theorem lhs_axis0 (j : S512x256.Idx) (k : (dot_S512x512_S256x512_S512x256_1_1_0_0_n_n).contr.Idx) :
    ((dot_S512x512_S256x512_S512x256_1_1_0_0_n_n).lhsIdx j k (0 : Fin S512x512.rank)).val = (j 0).val := by
  unfold DotDims.lhsIdx
  rw [dif_neg (show ¬(0 : Fin S512x512.rank) ∈ (dot_S512x512_S256x512_S512x256_1_1_0_0_n_n).lhsBatch by decide),
    dif_pos (show (0 : Fin S512x512.rank) ∈ (dot_S512x512_S256x512_S512x256_1_1_0_0_n_n).lhsNonContracting by decide)]
  rfl

/-- The left operand's column is the contraction position. -/
theorem lhs_axis1 (j : S512x256.Idx) (k : (dot_S512x512_S256x512_S512x256_1_1_0_0_n_n).contr.Idx) :
    ((dot_S512x512_S256x512_S512x256_1_1_0_0_n_n).lhsIdx j k (1 : Fin S512x512.rank)).val = (k ⟨0, Nat.one_pos⟩).val :=
  DotDims.lhsIdx_val_of_single (dot_S512x512_S256x512_S512x256_1_1_0_0_n_n) (cl := (1 : Fin S512x512.rank)) rfl j k

/-- The right operand's row is the result's column. -/
theorem rhs_axis0 (j : S512x256.Idx) (k : (dot_S512x512_S256x512_S512x256_1_1_0_0_n_n).contr.Idx) :
    ((dot_S512x512_S256x512_S512x256_1_1_0_0_n_n).rhsIdx j k (0 : Fin S256x512.rank)).val = (j 1).val := by
  unfold DotDims.rhsIdx
  rw [dif_neg (show ¬(0 : Fin S256x512.rank) ∈ (dot_S512x512_S256x512_S512x256_1_1_0_0_n_n).rhsBatch by decide),
    dif_pos (show (0 : Fin S256x512.rank) ∈ (dot_S512x512_S256x512_S512x256_1_1_0_0_n_n).rhsNonContracting by decide)]
  rfl

/-- The right operand's column is the contraction position. -/
theorem rhs_axis1 (j : S512x256.Idx) (k : (dot_S512x512_S256x512_S512x256_1_1_0_0_n_n).contr.Idx) :
    ((dot_S512x512_S256x512_S512x256_1_1_0_0_n_n).rhsIdx j k (1 : Fin S256x512.rank)).val = (k ⟨0, Nat.one_pos⟩).val :=
  DotDims.rhsIdx_val_of_single (dot_S512x512_S256x512_S512x256_1_1_0_0_n_n) (cr := (1 : Fin S256x512.rank)) rfl j k

/-- The product into the zero accumulator, read at (p, q), is the sum over the shared axis. -/
theorem product_apply (x0 : FVec Ideal S512x512 .f32) (x1 : FVec Ideal S256x512 .f32) (p : Fin 512) (q : Fin 256) :
    matmul dot_S512x512_S256x512_S512x256_1_1_0_0_n_n none x0 x1 (constant (F := Ideal) S512x256 .f32 0x00000000#32) (ix2 p q)
      = ∑ kk : Fin 512, x0 (ix2 p kk) * x1 (ix2 q kk) := by
  refine (Ideal.matmul_constant_zero_apply dot_S512x512_S256x512_S512x256_1_1_0_0_n_n none x0 x1 (ix2 p q)).trans ?_
  refine (Equiv.sum_comp (contrEquiv1 dot_S512x512_S256x512_S512x256_1_1_0_0_n_n 512 rfl rfl).symm _).symm.trans ?_
  refine Finset.sum_congr rfl fun kk _ => ?_
  have hl : (dot_S512x512_S256x512_S512x256_1_1_0_0_n_n).lhsIdx (ix2 p q) ((contrEquiv1 dot_S512x512_S256x512_S512x256_1_1_0_0_n_n 512 rfl rfl).symm kk) = ix2 p kk := by
    funext a
    apply Fin.ext
    match a with
    | ⟨0, _⟩ => exact lhs_axis0 _ _
    | ⟨1, _⟩ => exact (lhs_axis1 _ _).trans (contrEquiv1_symm_val dot_S512x512_S256x512_S512x256_1_1_0_0_n_n 512 rfl rfl kk)
  have hr : (dot_S512x512_S256x512_S512x256_1_1_0_0_n_n).rhsIdx (ix2 p q) ((contrEquiv1 dot_S512x512_S256x512_S512x256_1_1_0_0_n_n 512 rfl rfl).symm kk) = ix2 q kk := by
    funext a
    apply Fin.ext
    match a with
    | ⟨0, _⟩ => exact rhs_axis0 _ _
    | ⟨1, _⟩ => exact (rhs_axis1 _ _).trans (contrEquiv1_symm_val dot_S512x512_S256x512_S512x256_1_1_0_0_n_n 512 rfl rfl kk)
  rw [hl, hr]

/-- The update stores the accumulator plus the product of the two blocks over their shared axis. -/
theorem pay2_apply (acc : Vec Ideal S512x256 .f32) (x0 : Vec Ideal S512x512 .f32) (x1 : Vec Ideal S256x512 .f32) (p : Fin 512) (q : Fin 256) :
    k0_pay2 acc x0 x1 (ix2 p q) = acc (ix2 p q) + ∑ kk : Fin 512, x0 (ix2 p kk) * x1 (ix2 q kk) := by
  unfold k0_pay2
  rw [shapeCast_self, shapeCast_self, addf_apply]
  exact congrArg (acc (ix2 p q) + ·) (product_apply x0 x1 p q)

/-! ### The finish -/

/-- The finish stores the accumulator plus the bias row, times the mask row. -/
theorem pay3_apply (bRow mRow : Vec Ideal S1x256 .f32) (acc : Vec Ideal S512x256 .f32) (p : Fin 512) (q : Fin 256) :
    k0_pay3 bRow mRow acc (ix2 p q) = (acc (ix2 p q) + bRow (ix2 (0 : Fin 1) q)) * mRow (ix2 (0 : Fin 1) q) := by
  unfold k0_pay3
  rw [shapeCast_self, shapeCast_self, mulf_apply, addf_apply, broadcastTo_1b_ab_apply, broadcastTo_1b_ab_apply]

end Cert.ReferenceIdeal.RV

end
-- ==== Proof.TileSum.lean ====
/-
  A sum over 2048 terms taken tile by tile.

  The reference contracts the feature axis in four tiles of 512: it sums, over the tile number s = 0, 1, 2, 3, the
  partial sums over the 512 positions of tile s. In a commutative additive monoid (so on the extended reals, at
  infinities too) that is the plain sum over all 2048 positions: position k is position k mod 512 of tile k / 512.
-/
import Mathlib.Algebra.BigOperators.Fin
import Mathlib.Logic.Equiv.Fin.Basic

namespace Cert.MaskedLinear

open scoped BigOperators

/-- The sum over `Fin 2048` is the sum over the four tiles of the sums over each tile's 512 positions, the tile
    sums given as a function `T` of the tile number as a natural (its values past tile 3 are never used). -/
theorem sum_tiles_eq_sum {M : Type*} [AddCommMonoid M] (g : Fin 2048 → M) (T : ℕ → M)
    (hT : ∀ s : Fin 4, T s.val = ∑ kk : Fin 512, g ⟨512 * s.val + kk.val, by have := s.isLt; have := kk.isLt; omega⟩) :
    ∑ s ∈ Finset.range 4, T s = ∑ k : Fin 2048, g k := by
  rw [Finset.sum_range, ← Equiv.sum_comp (finProdFinEquiv (m := 4) (n := 512)) g, Fintype.sum_prod_type]
  refine Finset.sum_congr rfl fun s _ => ?_
  rw [hT s]
  refine Finset.sum_congr rfl fun kk _ => congrArg g (Fin.ext ?_)
  show 512 * s.val + kk.val = kk.val + 512 * s.val
  omega

end Cert.MaskedLinear
-- ==== Proof.RefValue.lean ====
/-
  The reference's result array, as one function of its four arguments: `maskedAfter`.

  The reference's kernel runs over a grid of 8 × 8 × 4 points, the last axis (the K tile, k = 0 … 3) fastest: points
  4r, 4r + 1, 4r + 2, 4r + 3 form one run, over which a [512, 256] accumulator, carried in a scratch buffer from each
  point to the next, collects the four partial products of the run's x tiles and w tiles — zeroed at k = 0, each point
  adding its own product — and at k = 3 the output tile (accumulator + bias row) · mask row is written back.

  So after point t the accumulator holds 0 plus the sum, over the points of t's run up to t, of each point's partial
  product (the fold of the carried scratch, unrolled: every step is an addition on the extended reals); at the last
  point of a run the four partial products are the four K tiles of the full contraction, which in a commutative monoid
  is the plain sum over all 2048 positions. Each run writes one tile of the result, the 64 runs' tiles cover it.
-/
import proofs.«154836_g2000404418063307_pallasbulk_246_3_alg».proof.Proof.RefPieces
import proofs.«154836_g2000404418063307_pallasbulk_246_3_alg».proof.Proof.RefBlocks
import proofs.«154836_g2000404418063307_pallasbulk_246_3_alg».proof.Proof.RefPayloads
import proofs.«154836_g2000404418063307_pallasbulk_246_3_alg».proof.Proof.TileSum
import proofs.«154836_g2000404418063307_pallasbulk_246_3_alg».proof.Proof.Spec

noncomputable section

open Idealize.ShloMosaic Idealize.ShloMosaic.TcCoe Idealize.SL.Sem Idealize.ShloMosaic.ValueIdx
open Idealize.ShloMosaic.Pipeline (Dat)

namespace Cert.ReferenceIdeal.RV

open Cert.ReferenceIdeal Cert.ReferenceIdeal.Gen Cert.ReferenceIdeal.Value Cert.MaskedLinear

/-! ## One point's step on the accumulator, whatever the float instance -/

section AnyInstance
variable {F : FTy → Type} [FloatOps F]
variable (m : (ℓ : Loc nD τ sig) → Buf (Elt F) ℓ)

/-- At the first point of a run the accumulator is left at the zero splat plus the point's product. -/
theorem scAt_first (c : Dev nD) (n : ℕ) (h : n < cfg0.N) (h0 : n % 4 = 0) (acc : Vec F S512x256 .f32) :
    scAt0_0 m c n h acc = k0_pay2 (k0_pay1 (F := F)) (iblk m c 0 ⟨n, h⟩) (iblk m c 1 ⟨n, h⟩) := by
  have h1 : ¬n % 4 = 3 := by omega
  unfold scAt0_0
  rw [dif_pos h0, dif_neg h1]
  exact sout_A ..

/-- At every other point it is left at what the point before left plus the point's product. -/
theorem scAt_later (c : Dev nD) (n : ℕ) (h : n < cfg0.N) (h0 : ¬n % 4 = 0) (acc : Vec F S512x256 .f32) :
    scAt0_0 m c n h acc = k0_pay2 acc (iblk m c 0 ⟨n, h⟩) (iblk m c 1 ⟨n, h⟩) := by
  unfold scAt0_0
  rw [dif_neg h0]
  by_cases h1 : n % 4 = 3
  · rw [dif_pos h1]; exact sout_C ..
  · rw [dif_neg h1]; exact sout_B ..

/-- At the last point of a run the output tile is (the accumulator the point leaves + bias row) · mask row. -/
theorem out_last (c : Dev nD) (t : Fin cfg0.N) (h1 : t.val % 4 = 3) :
    (outsAt0 m c t.val t.isLt).1
      = k0_pay3 (View.ld (iblk m c 2 t : Vec F S2x256 .f32) rowBias) (View.ld (iblk m c 2 t : Vec F S2x256 .f32) rowMask)
          (outsAt0 m c t.val t.isLt).2 := by
  have h0 : ¬t.val % 4 = 0 := by omega
  rw [outsAt0_C m c t h0 h1]
  dsimp only
  rw [out_C, sout_C]
  rfl

end AnyInstance

/-! ## At the ideal values -/

variable (m : (ℓ : Loc nD τ sig) → Buf (Elt Ideal) ℓ) (ρ : Dev nD → PrngReg)

/-- The four arguments, and point n's x tile and w tile, as arrays of extended reals. -/
abbrev xarr (c : Dev nD) : S4096x2048.Idx → EReal := m ((c : Thread nD τ).loc main_arg0)
abbrev warr (c : Dev nD) : S2048x2048.Idx → EReal := m ((c : Thread nD τ).loc main_arg1)
abbrev barr (c : Dev nD) : S2048.Idx → EReal := m ((c : Thread nD τ).loc main_arg2)
abbrev mkarr (c : Dev nD) : S2048.Idx → EReal := m ((c : Thread nD τ).loc main_arg3)
abbrev xtile (c : Dev nD) (n : ℕ) (h : n < cfg0.N) : S512x512.Idx → EReal := iblk m c 0 ⟨n, h⟩
abbrev wtile (c : Dev nD) (n : ℕ) (h : n < cfg0.N) : S256x512.Idx → EReal := iblk m c 1 ⟨n, h⟩

/-- The partial product point `n` adds to the accumulator, at tile entry `y` (zero past the grid: never used). -/
def partialProduct (c : Dev nD) (n : ℕ) (y : S512x256.Idx) : EReal :=
  if h : n < cfg0.N then
    ∑ kk : Fin 512, xtile m c n h (ix2 (y 0) kk) * wtile m c n h (ix2 (y 1) kk)
  else 0

theorem scAt_first_apply (c : Dev nD) (n : ℕ) (h : n < cfg0.N) (h0 : n % 4 = 0) (acc : Vec Ideal S512x256 .f32) (y : S512x256.Idx) :
    scAt0_0 m c n h acc y = 0 + partialProduct m c n y := by
  rw [scAt_first m c n h h0 acc]
  obtain ⟨p, q, rfl⟩ : ∃ (p : Fin 512) (q : Fin 256), y = ix2 p q := ⟨y 0, y 1, eq_ix2 y⟩
  rw [pay2_apply, pay1_apply]
  unfold partialProduct
  rw [dif_pos h]

theorem scAt_later_apply (c : Dev nD) (n : ℕ) (h : n < cfg0.N) (h0 : ¬n % 4 = 0) (acc : Vec Ideal S512x256 .f32) (y : S512x256.Idx) :
    scAt0_0 m c n h acc y = acc y + partialProduct m c n y := by
  rw [scAt_later m c n h h0 acc]
  obtain ⟨p, q, rfl⟩ : ∃ (p : Fin 512) (q : Fin 256), y = ix2 p q := ⟨y 0, y 1, eq_ix2 y⟩
  rw [pay2_apply]
  unfold partialProduct
  rw [dif_pos h]

/-- THE ACCUMULATOR after point `t`: zero plus the partial products of the points of `t`'s run up to `t`. -/
theorem acc_after (c : Dev nD) (t : Fin cfg0.N) (y : S512x256.Idx) :
    (outsAt0 m c t.val t.isLt).2 y = 0 + ∑ s ∈ Finset.range (t.val % 4 + 1), partialProduct m c (4 * (t.val / 4) + s) y := by
  rw [soutsAt0_0_eq]
  exact Pipeline.accAt_add_apply (fun n h => scAt0_0 m c n h (VS0_0.read (Elt Ideal) VS0_0.junk)) (scAt0_0 m c)
    (fun _ => (0 : EReal)) (fun n y => partialProduct m c n y) (4 * (t.val / 4)) 3
    (fun h i => scAt_first_apply m c _ h (by omega) _ i)
    (fun n h acc i hb he => scAt_later_apply m c n h (by omega) acc i)
    (t.val % 4) (by omega) _ y

/-- A partial product in the arguments: at point `n` of row tile `n / 32`, column tile `(n / 4) % 8` and K tile
    `n % 4`, entry (p, q) sums x (I, 512 (n % 4) + kk) · w (J, 512 (n % 4) + kk) over the tile's 512 positions. -/
theorem partialProduct_eq (c : Dev nD) (n : ℕ) (h : n < cfg0.N) (p : Fin 512) (q : Fin 256) (I : Fin 4096) (J : Fin 2048)
    (hI : I.val = 512 * (n / 32) + p.val) (hJ : J.val = 256 * ((n / 4) % 8) + q.val) :
    partialProduct m c n (ix2 p q)
      = ∑ kk : Fin 512, xarr m c (ix2 I ⟨512 * (n % 4) + kk.val, by have := kk.isLt; omega⟩)
          * warr m c (ix2 J ⟨512 * (n % 4) + kk.val, by have := kk.isLt; omega⟩) := by
  unfold partialProduct
  rw [dif_pos h]
  refine Finset.sum_congr rfl fun kk _ => ?_
  show xtile m c n h (ix2 p kk) * wtile m c n h (ix2 q kk) = _
  exact congrArg₂ (· * ·) (xtile_apply m c ⟨n, h⟩ p kk I _ hI rfl) (wtile_apply m c ⟨n, h⟩ q kk J _ hJ rfl)

/-! ## What a run's last point writes back, and the array after the grid -/

/-- The result as contents of the result array. -/
abbrev result (c : Dev nD) : Buf (Elt Ideal) ((c : Thread nD τ).loc main_v6) :=
  maskedAfter (xarr m c) (warr m c) (barr m c) (mkarr m c)

/-- The bias row of a packed tile read at its column q is the tile's entry (0, q); the mask row's is (1, q). -/
theorem ld_rowBias (X : Vec Ideal S2x256 .f32) (q : Fin 256) : View.ld X rowBias (ix2 (0 : Fin 1) q) = X (ix2 (0 : Fin 2) q) := by
  show X (rowBias.idx (ix2 (0 : Fin 1) q)) = _
  congr 1
  funext a
  apply Fin.ext
  match a with
  | ⟨0, _⟩ => rfl
  | ⟨1, _⟩ => show 0 + 1 * q.val = q.val; omega
theorem ld_rowMask (X : Vec Ideal S2x256 .f32) (q : Fin 256) : View.ld X rowMask (ix2 (0 : Fin 1) q) = X (ix2 (1 : Fin 2) q) := by
  show X (rowMask.idx (ix2 (0 : Fin 1) q)) = _
  congr 1
  funext a
  apply Fin.ext
  match a with
  | ⟨0, _⟩ => rfl
  | ⟨1, _⟩ => show 0 + 1 * q.val = q.val; omega

/-- The output tile the last point of a run leaves, at entry (p, q), is the result at the array entry the tile's
    position gives: the accumulated four K tiles are the whole contraction. -/
theorem out_last_apply (c : Dev nD) (t : Fin cfg0.N) (h1 : t.val % 4 = 3) (p : Fin 512) (q : Fin 256) (I : Fin 4096) (J : Fin 2048)
    (hI : I.val = 512 * (t.val / 32) + p.val) (hJ : J.val = 256 * ((t.val / 4) % 8) + q.val) :
    (outsAt0 m c t.val t.isLt).1 (ix2 p q) = result m c (ix2 I J) := by
  have hN : t.val < 256 := lt_of_lt_of_eq t.isLt (show cfg0.N = 256 from N_0)
  rw [out_last m c t h1, pay3_apply, ld_rowBias, ld_rowMask, acc_after,
    ptile_apply m c t (0 : Fin 2) q J hJ, ptile_apply m c t (1 : Fin 2) q J hJ, V_packed_bias, V_packed_mask, zero_add]
  show _ = ((∑ k : Fin 2048, xarr m c (ix2 I k) * warr m c (ix2 J k)) + barr m c (ix1 J)) * mkarr m c (ix1 J)
  congr 2
  rw [show t.val % 4 + 1 = 4 from by omega]
  refine sum_tiles_eq_sum (fun k => xarr m c (ix2 I k) * warr m c (ix2 J k)) _ fun s => ?_
  have hs := s.isLt
  rw [partialProduct_eq m c (4 * (t.val / 4) + s.val) (lt_of_lt_of_eq (show 4 * (t.val / 4) + s.val < 256 by omega) (show (256 : ℕ) = cfg0.N from N_0.symm)) p q I J (by omega) (by omega)]
  refine Finset.sum_congr rfl fun kk _ => ?_
  have e : 512 * ((4 * (t.val / 4) + s.val) % 4) + kk.val = 512 * s.val + kk.val := by omega
  congr 2 <;> exact congrArg _ (Fin.ext e)

/-- WHAT A FLUSHING POINT WRITES BACK is its block of the result. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have hN : t.val < 256 := lt_of_lt_of_eq t.isLt (show cfg0.N = 256 from N_0)
  have hi := idx_out t
  rw [flushed3]
  funext y
  obtain ⟨p, q, rfl⟩ : ∃ (p : Fin 512) (q : Fin 256), y = ix2 p q := ⟨y 0, y 1, eq_ix2 y⟩
  show (outsAt0 m c t.val t.isLt).1 (ix2 p q) = result m c (((cfg0.win 3).blk t).view.emb (ix2 p q))
  rw [out_last_apply m c t h1 p q ⟨512 * (t.val / 32) + p.val, by have := p.isLt; omega⟩
    ⟨256 * ((t.val / 4) % 8) + q.val, by have := q.isLt; omega⟩ rfl rfl]
  congr 1
  funext a
  apply Fin.ext
  match a with
  | ⟨0, _⟩ => show 512 * (t.val / 32) + p.val = win0_3.index t 0 * 512 + 1 * p.val; rw [hi.1]; omega
  | ⟨1, _⟩ => show 256 * ((t.val / 4) % 8) + q.val = win0_3.index t 1 * 256 + 1 * q.val; rw [hi.2]; omega

/-- Every entry of the result array lies in the block of the last point of some run. -/
theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : cfg0.N = 256 := N_0
  let t : Fin cfg0.N := ⟨32 * ((i 0).val / 512) + 4 * ((i 1).val / 256) + 3, by rw [hN]; omega⟩
  have hi := idx_out t
  have ht : t.val = 32 * ((i 0).val / 512) + 4 * ((i 1).val / 256) + 3 := rfl
  refine ⟨t, (flush0_3 t).mpr (by rw [ht]; omega), ?_⟩
  show i ∈ ((View.whole main_v6).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [hi.1, ht]; omega
  | ⟨1, _⟩ =>
    show win0_3.index t 1 * 256 ≤ (i 1).val ∧ (i 1).val < win0_3.index t 1 * 256 + 256
    rw [hi.2, ht]; omega

/-- So the result array ends holding `maskedAfter` of the arguments. -/
theorem final (c : Dev nD) : (dats m 0 c).arrAt 3 cfg0.N = result m c :=
  (dats m 0 c).arrAt_eq_of_cover 3 (result m c) (flushed_eq m c) cover

/-- The reference's run, read: the result array at `maskedAfter` of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.ReferenceIdeal.RV

end
-- ==== Proof.LibFiniteOps.lean ====
/-
  Extended reals that are real numbers, and the operations that keep them so.

  At the ideal float instance a float is an extended real. A vector is "all real" when each of its entries is
  the image of a real number; this file shows that each operation a host program or a kernel body applies
  entrywise, by re-indexing, or by a finite sum keeps that property, under the side conditions division and
  the reciprocal square root need (a nonzero, respectively positive, real operand). It also records the sign
  facts those side conditions are discharged from: sums of nonnegative reals are nonnegative, a square is
  nonnegative, a nonnegative real plus a positive one is positive. Last, a finiteness precondition (every entry's
  absolute value below positive infinity) is read back as: the vector is all real.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Idealize.ShloMosaic.FiniteOps

open Idealize.ShloMosaic
open scoped BigOperators

/-! ### One extended real -/

/-- An extended real that is (the image of) a real number. -/
def IsReal (a : EReal) : Prop := ∃ x : ℝ, a = (x : EReal)
/-- … that is a nonnegative real number. -/
def IsNonneg (a : EReal) : Prop := ∃ x : ℝ, 0 ≤ x ∧ a = (x : EReal)
/-- … that is a positive real number. -/
def IsPos (a : EReal) : Prop := ∃ x : ℝ, 0 < x ∧ a = (x : EReal)

theorem IsReal.coe (x : ℝ) : IsReal (x : EReal) := ⟨x, rfl⟩
theorem IsNonneg.isReal {a : EReal} (h : IsNonneg a) : IsReal a := let ⟨x, _, e⟩ := h; ⟨x, e⟩
theorem IsPos.isNonneg {a : EReal} (h : IsPos a) : IsNonneg a := let ⟨x, hx, e⟩ := h; ⟨x, hx.le, e⟩
theorem IsPos.isReal {a : EReal} (h : IsPos a) : IsReal a := h.isNonneg.isReal

/-- Being real is being neither infinity. -/
theorem isReal_iff {a : EReal} : IsReal a ↔ a ≠ ⊤ ∧ a ≠ ⊥ :=
  ⟨fun ⟨x, e⟩ => e ▸ ⟨EReal.coe_ne_top x, EReal.coe_ne_bot x⟩, fun ⟨h1, h2⟩ => ⟨a.toReal, (EReal.coe_toReal h1 h2).symm⟩⟩

/-- A nonnegative real is a real that is at least zero in the order of the extended reals. -/
theorem isNonneg_iff {a : EReal} : IsNonneg a ↔ IsReal a ∧ 0 ≤ a :=
  ⟨fun ⟨x, hx, e⟩ => ⟨⟨x, e⟩, e ▸ EReal.coe_nonneg.2 hx⟩, fun ⟨⟨x, e⟩, h⟩ => ⟨x, EReal.coe_nonneg.1 (e ▸ h), e⟩⟩

/-- A positive real is a real that is above zero in the order of the extended reals. -/
theorem isPos_iff {a : EReal} : IsPos a ↔ IsReal a ∧ 0 < a :=
  ⟨fun ⟨x, hx, e⟩ => ⟨⟨x, e⟩, e ▸ EReal.coe_pos.2 hx⟩, fun ⟨⟨x, e⟩, h⟩ => ⟨x, EReal.coe_pos.1 (e ▸ h), e⟩⟩

theorem IsPos.ne_zero {a : EReal} (h : IsPos a) : a ≠ 0 := by
  obtain ⟨x, hx, rfl⟩ := h; exact EReal.coe_ne_zero.2 hx.ne'

theorem isReal_zero : IsReal 0 := ⟨0, rfl⟩
theorem isNonneg_zero : IsNonneg 0 := ⟨0, le_rfl, rfl⟩
theorem isPos_one : IsPos 1 := ⟨1, one_pos, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (Max.max a b) := by
  rcases le_total a b with h | h
  · rw [show Max.max a b = b from max_eq_right h]; exact hb
  · rw [show Max.max a b = a from max_eq_left h]; exact ha

theorem IsNonneg.add {a b : EReal} (ha : IsNonneg a) (hb : IsNonneg b) : IsNonneg (a + b) := by
  obtain ⟨x, hx, rfl⟩ := ha; obtain ⟨y, hy, rfl⟩ := hb; exact ⟨x + y, add_nonneg hx hy, (EReal.coe_add x y).symm⟩
theorem IsNonneg.mul {a b : EReal} (ha : IsNonneg a) (hb : IsNonneg b) : IsNonneg (a * b) := by
  obtain ⟨x, hx, rfl⟩ := ha; obtain ⟨y, hy, rfl⟩ := hb; exact ⟨x * y, mul_nonneg hx hy, (EReal.coe_mul x y).symm⟩
/-- A nonnegative real plus a positive real is positive. -/
theorem IsNonneg.add_pos {a b : EReal} (ha : IsNonneg a) (hb : IsPos b) : IsPos (a + b) := by
  obtain ⟨x, hx, rfl⟩ := ha; obtain ⟨y, hy, rfl⟩ := hb
  exact ⟨x + y, add_pos_of_nonneg_of_pos hx hy, (EReal.coe_add x y).symm⟩
theorem IsPos.mul {a b : EReal} (ha : IsPos a) (hb : IsPos b) : IsPos (a * b) := by
  obtain ⟨x, hx, rfl⟩ := ha; obtain ⟨y, hy, rfl⟩ := hb; exact ⟨x * y, mul_pos hx hy, (EReal.coe_mul x y).symm⟩
/-- The square of a real is a nonnegative real. -/
theorem IsReal.mul_self_nonneg {a : EReal} (ha : IsReal a) : IsNonneg (a * a) := by
  obtain ⟨x, rfl⟩ := ha; exact ⟨x * x, _root_.mul_self_nonneg x, (EReal.coe_mul x x).symm⟩
/-- The larger of a real and a nonnegative real is a nonnegative real (a rectifier's output). -/
theorem IsReal.max_nonneg {a b : EReal} (ha : IsReal a) (hb : IsNonneg b) : IsNonneg (Max.max a b) := by
  rcases le_total a b with h | h
  · rw [show Max.max a b = b from max_eq_right h]; exact hb
  · rw [show Max.max a b = a from max_eq_left h]
    obtain ⟨y, hy, rfl⟩ := hb
    exact isNonneg_iff.2 ⟨ha, le_trans (EReal.coe_nonneg.2 hy) h⟩

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) isReal_zero h
/-- A finite sum of nonnegative reals is a nonnegative real. -/
theorem IsNonneg.sum {ι : Type} (s : Finset ι) (f : ι → EReal) (h : ∀ i ∈ s, IsNonneg (f i)) : IsNonneg (∑ i ∈ s, f i) :=
  Finset.sum_induction f IsNonneg (fun _ _ => IsNonneg.add) isNonneg_zero h

/-- The quotient of a real by a nonzero real is real. -/
theorem IsReal.div {a b : EReal} (ha : IsReal a) (hb : IsReal b) (hb0 : b ≠ 0) : IsReal (Ideal.div a b) := by
  obtain ⟨y, rfl⟩ := hb
  rw [Ideal.div_coe (EReal.coe_ne_zero.1 hb0)]
  exact ha.mul (IsReal.coe _)
/-- The quotient of a nonnegative real by a positive real is a nonnegative real. -/
theorem IsNonneg.div_pos {a b : EReal} (ha : IsNonneg a) (hb : IsPos b) : IsNonneg (Ideal.div a b) := by
  obtain ⟨y, hy, rfl⟩ := hb
  rw [Ideal.div_coe hy.ne']
  exact ha.mul ⟨1 / y, by positivity, rfl⟩
/-- The quotient of a positive real by a positive real is a positive real. -/
theorem IsPos.div_pos {a b : EReal} (ha : IsPos a) (hb : IsPos b) : IsPos (Ideal.div a b) := by
  obtain ⟨y, hy, rfl⟩ := hb
  rw [Ideal.div_coe hy.ne']
  exact ha.mul ⟨1 / y, by positivity, rfl⟩

/-- The reciprocal square root of a positive real is a positive real. -/
theorem IsPos.rsqrt {a : EReal} (ha : IsPos a) : IsPos (Ideal.rsqrt a) := by
  obtain ⟨x, hx, rfl⟩ := ha
  rw [Ideal.rsqrt_coe, if_neg (not_lt.2 hx.le), if_neg hx.ne']
  exact ⟨(Real.sqrt x)⁻¹, inv_pos.2 (Real.sqrt_pos.2 hx), rfl⟩

/-! ### Vectors -/

variable {ι κ : Type}

/-- Every entry is a real number. -/
def AllReal (v : ι → EReal) : Prop := ∀ i, IsReal (v i)
/-- Every entry is a nonnegative real number. -/
def AllNonneg (v : ι → EReal) : Prop := ∀ i, IsNonneg (v i)
/-- Every entry is a positive real number. -/
def AllPos (v : ι → EReal) : Prop := ∀ i, IsPos (v i)

/-- The definition spelled out: each entry equals some real. -/
theorem allReal_def (v : ι → EReal) : AllReal v ↔ ∀ i, ∃ x : ℝ, v i = (x : EReal) := Iff.rfl
/-- The other spelling: no entry is an infinity. -/
theorem allReal_iff (v : ι → EReal) : AllReal v ↔ ∀ i, v i ≠ ⊤ ∧ v i ≠ ⊥ := forall_congr' fun _ => isReal_iff

theorem AllNonneg.allReal {v : ι → EReal} (h : AllNonneg v) : AllReal v := fun i => (h i).isReal
theorem AllPos.allNonneg {v : ι → EReal} (h : AllPos v) : AllNonneg v := fun i => (h i).isNonneg
theorem AllPos.allReal {v : ι → EReal} (h : AllPos v) : AllReal v := fun i => (h i).isReal

/-- A vector each of whose entries is an entry of an all-real vector is all real: every re-indexing. -/
theorem AllReal.comp {v : ι → EReal} (h : AllReal v) (f : κ → ι) : AllReal (fun j => v (f j)) := fun j => h (f j)
theorem AllNonneg.comp {v : ι → EReal} (h : AllNonneg v) (f : κ → ι) : AllNonneg (fun j => v (f j)) := fun j => h (f j)
theorem AllPos.comp {v : ι → EReal} (h : AllPos v) (f : κ → ι) : AllPos (fun j => v (f j)) := fun j => h (f j)

/-! ### Entrywise operations -/

section Ops
variable {s t : Shape} {φ : FTy}

theorem AllReal.addf {a b : FVec Ideal s φ} (ha : AllReal a) (hb : AllReal b) : AllReal (Idealize.ShloMosaic.addf a b) :=
  fun i => (ha i).add (hb i)
theorem AllReal.subf {a b : FVec Ideal s φ} (ha : AllReal a) (hb : AllReal b) : AllReal (Idealize.ShloMosaic.subf a b) :=
  fun i => (ha i).sub (hb i)
theorem AllReal.mulf {a b : FVec Ideal s φ} (ha : AllReal a) (hb : AllReal b) : AllReal (Idealize.ShloMosaic.mulf a b) :=
  fun i => (ha i).mul (hb i)
theorem AllReal.maximumf {a b : FVec Ideal s φ} (ha : AllReal a) (hb : AllReal b) :
    AllReal (Idealize.ShloMosaic.maximumf a b) :=
  fun i => (ha i).max (hb i)

/-- A sum of nonnegative reals, entrywise. -/
theorem AllNonneg.addf {a b : FVec Ideal s φ} (ha : AllNonneg a) (hb : AllNonneg b) :
    AllNonneg (Idealize.ShloMosaic.addf a b) :=
  fun i => (ha i).add (hb i)
/-- A nonnegative vector plus a positive one is positive: a variance plus its stabilising constant, a count plus one. -/
theorem AllNonneg.addf_pos {a b : FVec Ideal s φ} (ha : AllNonneg a) (hb : AllPos b) :
    AllPos (Idealize.ShloMosaic.addf a b) :=
  fun i => (ha i).add_pos (hb i)
/-- The entrywise square of a real vector is nonnegative. -/
theorem AllReal.mulf_self {a : FVec Ideal s φ} (ha : AllReal a) : AllNonneg (Idealize.ShloMosaic.mulf a a) :=
  fun i => (ha i).mul_self_nonneg
/-- A rectifier's output (the larger of a real and a nonnegative real, entrywise) is nonnegative. -/
theorem AllReal.maximumf_nonneg {a b : FVec Ideal s φ} (ha : AllReal a) (hb : AllNonneg b) :
    AllNonneg (Idealize.ShloMosaic.maximumf a b) :=
  fun i => (ha i).max_nonneg (hb i)

/-- The host's division by a vector of nonzero reals keeps a real vector real. -/
theorem AllReal.hostDivf {a b : FVec Ideal s φ} (ha : AllReal a) (hb : AllReal b) (hb0 : ∀ i, b i ≠ 0) :
    AllReal (Host.divf a b) :=
  fun i => (ha i).div (hb i) (hb0 i)
/-- … in particular by a vector of positive reals. -/
theorem AllReal.hostDivf_pos {a b : FVec Ideal s φ} (ha : AllReal a) (hb : AllPos b) : AllReal (Host.divf a b) :=
  ha.hostDivf hb.allReal fun i => (hb i).ne_zero
/-- A nonnegative vector divided by a positive one is nonnegative: a mean of squares. -/
theorem AllNonneg.hostDivf_pos {a b : FVec Ideal s φ} (ha : AllNonneg a) (hb : AllPos b) : AllNonneg (Host.divf a b) :=
  fun i => (ha i).div_pos (hb i)
/-- The same for the kernel's division. -/
theorem AllReal.divf {a b : FVec Ideal s φ} (ha : AllReal a) (hb : AllReal b) (hb0 : ∀ i, b i ≠ 0) :
    AllReal (Idealize.ShloMosaic.divf a b) :=
  fun i => (ha i).div (hb i) (hb0 i)

/-- The host's reciprocal square root of a vector of positive reals is a vector of positive reals. -/
theorem AllPos.hostRsqrt {a : FVec Ideal s φ} (ha : AllPos a) : AllPos (Host.rsqrt a) :=
  fun i => (ha i).rsqrt
/-- The same for the kernel's reciprocal square root. -/
theorem AllPos.rsqrt {a : FVec Ideal s φ} (ha : AllPos a) : AllPos (Idealize.ShloMosaic.rsqrt a) :=
  fun i => (ha i).rsqrt

/-- A selection between two real vectors is real, whatever the mask. -/
theorem AllReal.select {a b : FVec Ideal s φ} (c : IVec s 1) (ha : AllReal a) (hb : AllReal b) :
    AllReal (Idealize.ShloMosaic.select c a b) := fun i => by
  show IsReal (if c i = 1 then a i else b i)
  split
  · exact ha i
  · exact hb i

/-- A constant vector is real when its literal denotes a real. -/
theorem allReal_constant {b : BitVec φ.bits} (h : IsReal (Ideal.ofBits φ b)) : AllReal (constant (F := Ideal) s φ b) :=
  fun _ => h
theorem allNonneg_constant {b : BitVec φ.bits} (h : IsNonneg (Ideal.ofBits φ b)) : AllNonneg (constant (F := Ideal) s φ b) :=
  fun _ => h
theorem allPos_constant {b : BitVec φ.bits} (h : IsPos (Ideal.ofBits φ b)) : AllPos (constant (F := Ideal) s φ b) :=
  fun _ => h

end Ops

/-! ### Re-indexing operations: each entry of the result is an entry of an operand

Stated for any predicate on entries, then at the three used here. -/

section Layout
variable {s t : Shape} {α : Type} {w : Nat} (P : α → Prop)

theorem forall_broadcast (t : Shape) {x : α} (hx : P x) : ∀ j, P (broadcast t x j) := fun _ => hx
theorem forall_broadcastTo {x : s.Idx → α} (hx : ∀ k, P (x k)) (h : s.Broadcasts t) : ∀ j, P (broadcastTo t x h j) :=
  fun _ => hx _
theorem forall_broadcastInDim {x : s.Idx → α} (hx : ∀ k, P (x k)) (dims : Fin s.rank → Fin t.rank)
    (h : s.BroadcastsInDim t dims) : ∀ j, P (broadcastInDim t dims h x j) :=
  fun _ => hx _
theorem forall_shapeCast {x : s.Idx → α} (hx : ∀ k, P (x k)) (h : s.ShapeCasts t) : ∀ j, P (shapeCast t x h j) :=
  fun _ => hx _
theorem forall_extractStridedSlice {x : s.Idx → α} (hx : ∀ k, P (x k)) (off : Fin s.rank → Nat) (h : s.Slices off t) :
    ∀ j, P (extractStridedSlice t off x h j) :=
  fun _ => hx _
theorem forall_transpose {x : s.Idx → α} (hx : ∀ k, P (x k)) (perm : List (Fin s.rank)) (h : s.Transposes perm t) :
    ∀ j, P (transpose t perm x h j) :=
  fun _ => hx _
/-- A gather's entries are entries of the operand (the start indices are clamped into it). -/
theorem forall_gather {si : Shape} {x : s.Idx → α} (hx : ∀ k, P (x k)) (d : GatherDims s si t) (idx : IVec si w) :
    ∀ j, P (Host.gather d x idx j) :=
  fun _ => hx _
/-- A concatenation's entries are entries of its pieces. -/
theorem forall_concatenate (a : Fin t.rank) (xs : List ((s : Shape) × (s.Idx → α)))
    (hxs : ∀ p ∈ xs, ∀ k, P (p.2 k)) (h : Shape.Concatenates (xs.map (·.1)) t a) :
    ∀ j, P (concatenate t a xs h j) := by
  intro j
  unfold concatenate
  exact hxs _ (List.getElem_mem _) _

end Layout

section LayoutReal
variable {s t : Shape} {w : Nat}

theorem AllReal.broadcastTo {x : s.Idx → EReal} (hx : AllReal x) (h : s.Broadcasts t) :
    AllReal (Idealize.ShloMosaic.broadcastTo t x h) := forall_broadcastTo IsReal hx h
theorem AllReal.broadcastInDim {x : s.Idx → EReal} (hx : AllReal x) (dims : Fin s.rank → Fin t.rank)
    (h : s.BroadcastsInDim t dims) : AllReal (Idealize.ShloMosaic.broadcastInDim t dims h x) :=
  forall_broadcastInDim IsReal hx dims h
theorem AllReal.shapeCast {x : s.Idx → EReal} (hx : AllReal x) (h : s.ShapeCasts t) :
    AllReal (Idealize.ShloMosaic.shapeCast t x h) := forall_shapeCast IsReal hx h
theorem AllReal.extractStridedSlice {x : s.Idx → EReal} (hx : AllReal x) (off : Fin s.rank → Nat) (h : s.Slices off t) :
    AllReal (Idealize.ShloMosaic.extractStridedSlice t off x h) := forall_extractStridedSlice IsReal hx off h
theorem AllReal.gather {si : Shape} {x : s.Idx → EReal} (hx : AllReal x) (d : GatherDims s si t) (idx : IVec si w) :
    AllReal (Host.gather d x idx) := forall_gather IsReal hx d idx
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := forall_concatenate IsReal a xs hxs h
/-- The concatenation of two real vectors. -/
theorem AllReal.concatenate_pair {s₁ s₂ : Shape} (a : Fin t.rank) {x₁ : s₁.Idx → EReal} {x₂ : s₂.Idx → EReal}
    (h₁ : AllReal x₁) (h₂ : AllReal x₂) (h : Shape.Concatenates (([⟨s₁, x₁⟩, ⟨s₂, x₂⟩] : List ((s : Shape) × (s.Idx → EReal))).map (·.1)) t a) :
    AllReal (Idealize.ShloMosaic.concatenate t a [⟨s₁, x₁⟩, ⟨s₂, x₂⟩] h) :=
  AllReal.concatenate a _ (fun p hp => by
    rcases List.mem_cons.1 hp with rfl | hp
    · exact h₁
    · rcases List.mem_cons.1 hp with rfl | hp
      · exact h₂
      · exact absurd hp (List.not_mem_nil)) h

theorem AllNonneg.broadcastInDim {x : s.Idx → EReal} (hx : AllNonneg x) (dims : Fin s.rank → Fin t.rank)
    (h : s.BroadcastsInDim t dims) : AllNonneg (Idealize.ShloMosaic.broadcastInDim t dims h x) :=
  forall_broadcastInDim IsNonneg hx dims h
theorem AllPos.broadcastInDim {x : s.Idx → EReal} (hx : AllPos x) (dims : Fin s.rank → Fin t.rank)
    (h : s.BroadcastsInDim t dims) : AllPos (Idealize.ShloMosaic.broadcastInDim t dims h x) :=
  forall_broadcastInDim IsPos hx dims h
theorem AllNonneg.gather {si : Shape} {x : s.Idx → EReal} (hx : AllNonneg x) (d : GatherDims s si t) (idx : IVec si w) :
    AllNonneg (Host.gather d x idx) := forall_gather IsNonneg hx d idx
theorem AllPos.gather {si : Shape} {x : s.Idx → EReal} (hx : AllPos x) (d : GatherDims s si t) (idx : IVec si w) :
    AllPos (Host.gather d x idx) := forall_gather IsPos hx d idx

end LayoutReal

/-! ### Finite sums: the host's float reduction, scatter-add and dot product -/

section Sums
variable {s t u si su : Shape} {φ φ₁ φ₂ : FTy} {w : Nat}

/-- The host's float sum of a real vector from a real initial value is real. -/
theorem AllReal.hostReduceAdd {axes : List (Fin s.rank)} {x : FVec Ideal s φ} {init : u.Idx → Ideal φ}
    (hx : AllReal x) (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (IsReal.sum _ _ fun i _ => hx i)
/-- The host's float sum of a nonnegative vector from a nonnegative initial value is nonnegative. -/
theorem AllNonneg.hostReduceAdd {axes : List (Fin s.rank)} {x : FVec Ideal s φ} {init : u.Idx → Ideal φ}
    (hx : AllNonneg x) (hi : AllNonneg init) (h : s.ReducesTo axes t) (hu : 0 < u.numel) :
    AllNonneg (Host.reduceAdd x init h hu) := fun j => by
  show IsNonneg (Ideal.hostReduceAdd h x (init (Shape.Idx.first hu)) j)
  unfold Ideal.hostReduceAdd
  exact (hi _).add (IsNonneg.sum _ _ fun i _ => hx i)

/-- The host's accumulating scatter of real updates into a real operand is real: each entry is the operand's
    plus a finite sum of updates. -/
theorem AllReal.hostScatterAdd (d : ScatterDims s si su) {x : FVec Ideal s φ} {upd : FVec Ideal su φ} (idx : IVec si w)
    (hx : AllReal x) (hu : AllReal upd) : AllReal (Host.scatterAdd d x idx upd) := fun i => by
  show IsReal (Ideal.hostScatterAdd d x idx upd i)
  unfold Ideal.hostScatterAdd
  exact (hx i).add (IsReal.sum _ _ fun j _ => hu j)
/-- The host's accumulating scatter of nonnegative updates into a nonnegative operand (zeros, say) is nonnegative. -/
theorem AllNonneg.hostScatterAdd (d : ScatterDims s si su) {x : FVec Ideal s φ} {upd : FVec Ideal su φ} (idx : IVec si w)
    (hx : AllNonneg x) (hu : AllNonneg upd) : AllNonneg (Host.scatterAdd d x idx upd) := fun i => by
  show IsNonneg (Ideal.hostScatterAdd d x idx upd i)
  unfold Ideal.hostScatterAdd
  exact (hx i).add (IsNonneg.sum _ _ fun j _ => hu j)

/-- The host's dot product of two real operands is real: a finite sum of products. -/
theorem AllReal.hostDotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact IsReal.sum _ _ fun k _ => (hl _).mul (hr _)
/-- A matrix product into a real accumulator is real. -/
theorem AllReal.matmul {sl sr so : Shape} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (Idealize.ShloMosaic.matmul d prec lhs rhs acc) := fun j => by
  show IsReal (FloatOps.matmul d prec lhs rhs acc j)
  rw [Ideal.matmul_apply]
  exact (ha j).add (IsReal.sum _ _ fun k _ => (hl _).mul (hr _))

end Sums

/-! ### Literals -/

/-- The word of `0.0` is zero, `1.0` one. -/
theorem ofBits_one_f32 : Ideal.ofBits .f32 0x3F800000#32 = 1 := by
  simp [Ideal.ofBits, Ideal.ieee]
  norm_cast
  norm_num
theorem isReal_ofBits_zero_f32 : IsReal (Ideal.ofBits .f32 0x00000000#32) := by
  rw [Ideal.ofBits_zero_f32]; exact isReal_zero
theorem isNonneg_ofBits_zero_f32 : IsNonneg (Ideal.ofBits .f32 0x00000000#32) := by
  rw [Ideal.ofBits_zero_f32]; exact isNonneg_zero
theorem isPos_ofBits_one_f32 : IsPos (Ideal.ofBits .f32 0x3F800000#32) := by
  rw [ofBits_one_f32]; exact isPos_one

/-- The word `0x461C4000` (`1.0e4`) denotes a positive real. -/
theorem isPos_ofBits_1e4_f32 : IsPos (Ideal.ofBits .f32 0x461C4000#32) := by
  unfold IsPos
  simp [Ideal.ofBits, Ideal.ieee]
  exact ⟨10240000 * (2 ^ 10)⁻¹, by positivity, (EReal.coe_mul _ _).symm⟩
/-- The word `0x3727C5AC` (`9.99999974e-6`) denotes a positive real. -/
theorem isPos_ofBits_eps_f32 : IsPos (Ideal.ofBits .f32 0x3727C5AC#32) := by
  unfold IsPos
  simp [Ideal.ofBits, Ideal.ieee]
  exact ⟨10995116 * (2 ^ 40)⁻¹, by positivity, (EReal.coe_mul _ _).symm⟩
/-- The word `0x4A240E18` (`2687878.0`) denotes a positive real. -/
theorem isPos_ofBits_2687878_f32 : IsPos (Ideal.ofBits .f32 0x4A240E18#32) := by
  unfold IsPos
  simp [Ideal.ofBits, Ideal.ieee]
  exact ⟨10751512 * (2 ^ 2)⁻¹, by positivity, (EReal.coe_mul _ _).symm⟩

/-! ### A finiteness precondition read back -/

/-- The word of positive infinity denotes the top element. -/
theorem ofBits_inf_f32 : Ideal.ofBits .f32 0x7F800000#32 = ⊤ := by simp [Ideal.ofBits, Ideal.ieee]

/-- An extended real whose absolute value compares below positive infinity is a real number. -/
theorem isReal_of_abs_lt_inf {a : EReal}
    (h : Ideal.cmp .olt (max a (-a)) (Ideal.ofBits .f32 0x7F800000#32) = 1#1) : IsReal a := by
  rw [ofBits_inf_f32] at h
  have hlt : max a (-a) < ⊤ := by
    by_contra hn
    simp [Ideal.cmp, hn] at h
  rw [max_lt_iff] at hlt
  refine isReal_iff.2 ⟨ne_of_lt hlt.1, ?_⟩
  rintro rfl
  simp at hlt

/-- A shape of rank zero has one index. -/
instance subsingleton_idx_rank_zero : Subsingleton (⟨0, ![]⟩ : Shape).Idx := ⟨fun a b => funext fun d => d.elim0⟩

/-- One conjunct of a finiteness precondition read back: if "every entry's absolute value is below positive
    infinity", reduced by conjunction from true, came out true, the vector is all real. -/
theorem allReal_of_all_abs_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) : AllReal x := fun i =>
  isReal_of_abs_lt_inf (Host.reduce_andi_all _ _ hr hu j e i)

end Idealize.ShloMosaic.FiniteOps

end
-- ==== Proof.Law.lean ====
/-
  The two arrangements of the masked linear layer agree on real arguments.

  For real numbers, ((∑ k, x k · w k) + b) · m = (∑ k, x k · (w k · m)) + b · m: the product distributes over the
  sum and over the bias, and multiplication is associative. The extended reals do not have this law at the
  infinities, so the arguments are first written as images of real numbers; the image map commutes with products,
  sums of two and finite sums, which moves the whole equation into the reals.
-/
import proofs.«154836_g2000404418063307_pallasbulk_246_3_alg».proof.Proof.Spec
import proofs.«154836_g2000404418063307_pallasbulk_246_3_alg».proof.Proof.LibFiniteOps
import Mathlib.Data.EReal.Basic
import Mathlib.Algebra.BigOperators.Ring.Finset

noncomputable section

namespace Cert.MaskedLinear

open Idealize.ShloMosaic Idealize.ShloMosaic.ValueIdx Idealize.ShloMosaic.FiniteOps
open scoped BigOperators

/-- The image of a finite sum of real numbers in the extended reals is the sum of the images. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: masking the finished entry is masking each weight and the bias. -/
theorem real_law {ι : Type} (s : Finset ι) (p q : ι → ℝ) (c m : ℝ) :
    ((∑ k ∈ s, p k * q k) + c) * m = (∑ k ∈ s, p k * (q k * m)) + c * m := by
  rw [add_mul, Finset.sum_mul]
  exact congrArg (· + c * m) (Finset.sum_congr rfl fun k _ => mul_assoc _ _ _)

/-- On arguments all of whose entries are real, applying the mask to the finished row and folding it into the
    weights and the bias give the same array. -/
theorem maskedAfter_eq_maskedBefore {x : SX.Idx → EReal} {w : SW.Idx → EReal} {b mk : SV.Idx → EReal}
    (hx : Idealize.ShloMosaic.FiniteOps.AllReal x) (hw : Idealize.ShloMosaic.FiniteOps.AllReal w)
    (hb : Idealize.ShloMosaic.FiniteOps.AllReal b) (hm : Idealize.ShloMosaic.FiniteOps.AllReal mk) :
    maskedAfter x w b mk = maskedBefore x w b mk := by
  funext j
  -- real witnesses for every entry
  choose xr hxr using (allReal_def x).1 hx
  choose wr hwr using (allReal_def w).1 hw
  choose br hbr using (allReal_def b).1 hb
  choose mr hmr using (allReal_def mk).1 hm
  unfold maskedAfter maskedBefore
  simp only [hxr, hwr, hbr, hmr]
  -- both sides are images of real numbers
  simp only [← EReal.coe_mul, ← coe_finset_sum, ← EReal.coe_add]
  exact congrArg _ (real_law _ _ _ _ _)

end Cert.MaskedLinear

end
-- ==== Proof.Finite.lean ====
/-
  The finiteness precondition read back: when the printed predicate "every entry of every argument has absolute
  value below positive infinity" evaluates to true at the ideal float instance, each of the four arguments has only
  real entries.

  The predicate is the conjunction of four whole-array reductions by "and", one per argument, joined by three
  binary conjunctions. A conjunction of two bits is one exactly when both are; each reduction that came out one
  says every entry of its argument is below positive infinity in absolute value, hence neither infinity.
-/
import proofs.«154836_g2000404418063307_pallasbulk_246_3_alg».proof.Pre_finite_inputs
import proofs.«154836_g2000404418063307_pallasbulk_246_3_alg».proof.Proof.Gen.Pre_finite_inputs
import proofs.«154836_g2000404418063307_pallasbulk_246_3_alg».proof.Proof.LibFiniteOps
import Idealize.ShloMosaic.Lib.ReduceAll
import Idealize.ShloMosaic.Lib.Affine
import Idealize.ShloMosaic.Lib.ValueIdx

noncomputable section

namespace Cert.MaskedLinear

open Idealize.ShloMosaic Idealize.ShloMosaic.FiniteOps

/-- If the finiteness predicate of the four arguments is true, every entry of each argument is a real number. -/
theorem allReal_of_finite_inputs [Cert.Pre_finite_inputs.Facts]
    (x : FVec Ideal Cert.Pre_finite_inputs.S4096x2048 .f32) (w : FVec Ideal Cert.Pre_finite_inputs.S2048x2048 .f32)
    (b mk : FVec Ideal Cert.Pre_finite_inputs.S2048 .f32)
    (h : Cert.Pre_finite_inputs.fn (F := Ideal) x w b mk = fun _ => 1#1) :
    Idealize.ShloMosaic.FiniteOps.AllReal x ∧ Idealize.ShloMosaic.FiniteOps.AllReal w ∧
      Idealize.ShloMosaic.FiniteOps.AllReal b ∧ Idealize.ShloMosaic.FiniteOps.AllReal mk := by
  -- the predicate's one entry
  have h0 := congrFun h ValueIdx.ix0
  dsimp only [Cert.Pre_finite_inputs.fn, Cert.Pre_finite_inputs.fn_part1] at h0
  -- a conjunction of bits is one exactly when both bits are: three times
  obtain ⟨h123, h4⟩ := IntOp.andi_eq_one.1 h0
  obtain ⟨h12, h3⟩ := IntOp.andi_eq_one.1 h123
  obtain ⟨h1, h2⟩ := IntOp.andi_eq_one.1 h12
  -- each conjunct is one argument's reduction
  exact ⟨allReal_of_all_abs_lt_inf x _ _ _ _ h1, allReal_of_all_abs_lt_inf w _ _ _ _ h2,
    allReal_of_all_abs_lt_inf b _ _ _ _ h3, allReal_of_all_abs_lt_inf mk _ _ _ _ h4⟩

end Cert.MaskedLinear

end
-- ==== Proof.lean ====
/-
  The masked linear layer z = (x · wᵀ + b) ⊙ mk, x : [4096, 2048], w : [2048, 2048], b, mk : [2048]: the kernel against
  its reference, over the extended reals.

  The kernel folds the mask into its operands on the host — w ⊙ mk (each row v of w scaled by mk v) and b ⊙ mk — and
  computes x · (w ⊙ mk)ᵀ + b ⊙ mk with one full-K matrix product per block of 1024 rows (the bf16 casts of the operands
  are the identity at the ideal values). The reference packs bias and mask into one [2, 2048] array and runs a K-tiled
  product over a grid of 8 × 8 × 4 points, four partial products of 512 positions accumulated in a scratch buffer per
  [512, 256] output tile, the tile written at the last K step as (accumulator + bias) · mask.

  * The kernel's result array is `maskedBefore` of the four arguments, on all extended reals (KernelValue.lean).
  * The reference's is `maskedAfter` of them, on all extended reals: a sum taken tile by tile is the plain sum
    (RefPieces.lean, RefBlocks.lean, RefPayloads.lean, TileSum.lean, RefValue.lean).
  * Where every entry of every argument is real — what the precondition says (Finite.lean) — the two functions agree,
    by distributivity of the product over the sum and the bias in the reals (Law.lean). At an infinite entry the law
    fails on the extended reals, so the precondition is used.

  The three frames are the generated ones; the idealization rewrote nothing, so `preserves` is `True`.
-/
import proofs.«154836_g2000404418063307_pallasbulk_246_3_alg».proof.Defs
import proofs.«154836_g2000404418063307_pallasbulk_246_3_alg».proof.Proof.Gen.Kernel
import proofs.«154836_g2000404418063307_pallasbulk_246_3_alg».proof.Proof.Gen.Kernel.Skeleton
import proofs.«154836_g2000404418063307_pallasbulk_246_3_alg».proof.Proof.Gen.Kernel.Launch
import proofs.«154836_g2000404418063307_pallasbulk_246_3_alg».proof.Proof.Gen.Kernel.Points
import proofs.«154836_g2000404418063307_pallasbulk_246_3_alg».proof.Proof.Gen.Kernel.Frame
import proofs.«154836_g2000404418063307_pallasbulk_246_3_alg».proof.Proof.Gen.KernelIdeal
import proofs.«154836_g2000404418063307_pallasbulk_246_3_alg».proof.Proof.Gen.KernelIdeal.Skeleton
import proofs.«154836_g2000404418063307_pallasbulk_246_3_alg».proof.Proof.Gen.KernelIdeal.Launch
import proofs.«154836_g2000404418063307_pallasbulk_246_3_alg».proof.Proof.Gen.KernelIdeal.Points
import proofs.«154836_g2000404418063307_pallasbulk_246_3_alg».proof.Proof.Gen.KernelIdeal.Frame
import proofs.«154836_g2000404418063307_pallasbulk_246_3_alg».proof.Proof.Gen.ReferenceIdeal
import proofs.«154836_g2000404418063307_pallasbulk_246_3_alg».proof.Proof.Gen.ReferenceIdeal.Skeleton
import proofs.«154836_g2000404418063307_pallasbulk_246_3_alg».proof.Proof.Gen.ReferenceIdeal.Launch
import proofs.«154836_g2000404418063307_pallasbulk_246_3_alg».proof.Proof.Gen.ReferenceIdeal.Points
import proofs.«154836_g2000404418063307_pallasbulk_246_3_alg».proof.Proof.Gen.ReferenceIdeal.Frame
import proofs.«154836_g2000404418063307_pallasbulk_246_3_alg».proof.Proof.Gen.Pre_finite_inputs
import proofs.«154836_g2000404418063307_pallasbulk_246_3_alg».proof.Proof.KernelValue
import proofs.«154836_g2000404418063307_pallasbulk_246_3_alg».proof.Proof.RefValue
import proofs.«154836_g2000404418063307_pallasbulk_246_3_alg».proof.Proof.Law
import proofs.«154836_g2000404418063307_pallasbulk_246_3_alg».proof.Proof.Finite
import Idealize.ShloMosaic.Adequacy
import Idealize.ShloMosaic.Init

noncomputable section

namespace Cert.Proof

open Idealize.ShloMosaic Idealize.SL.Sem Cert.MaskedLinear

/-- Both idealized programs run; the kernel ends at `maskedBefore` of its arguments, the reference at `maskedAfter`
    of its own, which are the kernel's; all entries being real, the two are one array. -/
theorem algebraic : Cert.algebraic_KernelIdeal_ReferenceIdeal := by
  intro m ρ m' ρ' hpre hagree
  refine ⟨_, Cert.KernelIdeal.KV.run m ρ, ?_⟩
  refine (θ_run Cert.ReferenceIdeal.defs _ _).mono (fun _ h c => ⟨(h c).1.trans ?_, (h c).2⟩)
    (Cert.ReferenceIdeal.RV.run m' ρ')
  obtain ⟨e0, e1, e2, e3⟩ := hagree c
  obtain ⟨hx, hw, hb, hm⟩ := allReal_of_finite_inputs _ _ _ _ (hpre c)
  exact (congr (congr (congr (congrArg maskedAfter e0) e1) e2) e3).trans (maskedAfter_eq_maskedBefore hx hw hb hm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
